-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩

class Facts : Prop where
  bcast_S_S5000x256 : S_.BroadcastsInDim S5000x256 (![] : Fin 0 → Fin S5000x256.rank)
  reducesTo_S5000x256_S_d0_1 : S5000x256.ReducesTo [0, 1] S_
  h_S_ : 0 < S_.numel
  bcast_S_S24990002x1 : S_.BroadcastsInDim S24990002x1 (![] : Fin 0 → Fin S24990002x1.rank)
  reducesTo_S24990002x1_S_d0_1 : S24990002x1.ReducesTo [0, 1] S_
  bcast_S_S5000x1 : S_.BroadcastsInDim S5000x1 (![] : Fin 0 → Fin S5000x1.rank)
  reducesTo_S5000x1_S_d0_1 : S5000x1.ReducesTo [0, 1] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg7 : FVec F S20 .f32) (main_v13 : IVec S_ 1) (main_v16 : IVec S20x256 1) : IVec S_ 1 :=
  let main_c_5 : IVec S_ 1 := constantI S_ 1 1#1
  let main_v17 : IVec S_ 1 := (fun x v => Host.reduce IntOp.andi x v reducesTo_S20x256_S_d0_1 h_S_) main_v16 main_c_5
  let main_v18 : IVec S_ 1 := andi main_v13 main_v17
  let main_v19 : FVec F S20 .f32 := Host.absf main_arg7
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : IVec S64x512 32) (main_arg1 : IVec S64x512x16 32) (main_arg2 : IVec S64x512x16 32) (main_arg3 : FVec F S5000x256 .f32) (main_arg4 : FVec F S24990002x1 .f32) (main_arg5 : FVec F S5000x1 .f32) (main_arg6 : FVec F S20x256 .f32) (main_arg7 : FVec F S20 .f32) : IVec S_ 1 :=
  let main_v0 : FVec F S5000x256 .f32 := Host.absf main_arg3
  let main_cst : FVec F S_ .f32 := constant S_ .f32 0x7F800000#32
  let main_v1 : FVec F S5000x256 .f32 := broadcastInDim S5000x256 ![] bcast_S_S5000x256 main_cst
  let main_v2 : IVec S5000x256 1 := cmpf .olt main_v0 main_v1
  let main_c : IVec S_ 1 := constantI S_ 1 1#1
  let main_v3 : IVec S_ 1 := (fun x v => Host.reduce IntOp.andi x v reducesTo_S5000x256_S_d0_1 h_S_) main_v2 main_c
  let main_v4 : FVec F S24990002x1 .f32 := Host.absf main_arg4
  let main_cst_0 : FVec F S_ .f32 := constant S_ .f32 0x7F800000#32
  let main_v5 : FVec F S24990002x1 .f32 := broadcastInDim S24990002x1 ![] bcast_S_S24990002x1 main_cst_0
  let main_v6 : IVec S24990002x1 1 := cmpf .olt main_v4 main_v5
  let main_c_1 : IVec S_ 1 := constantI S_ 1 1#1
  let main_v7 : IVec S_ 1 := (fun x v => Host.reduce IntOp.andi x v reducesTo_S24990002x1_S_d0_1 h_S_) main_v6 main_c_1
  let main_v8 : IVec S_ 1 := andi main_v3 main_v7
  let main_v9 : FVec F S5000x1 .f32 := Host.absf main_arg5
  let main_cst_2 : FVec F S_ .f32 := constant S_ .f32 0x7F800000#32
  let main_v10 : FVec F S5000x1 .f32 := broadcastInDim S5000x1 ![] bcast_S_S5000x1 main_cst_2
  let main_v11 : IVec S5000x1 1 := cmpf .olt main_v9 main_v10
  let main_c_3 : IVec S_ 1 := constantI S_ 1 1#1
  let main_v12 : IVec S_ 1 := (fun x v => Host.reduce IntOp.andi x v reducesTo_S5000x1_S_d0_1 h_S_) main_v11 main_c_3
  let main_v13 : IVec S_ 1 := andi main_v8 main_v12
  let main_v14 : FVec F S20x256 .f32 := Host.absf main_arg6
  let main_cst_4 : FVec F S_ .f32 := constant S_ .f32 0x7F800000#32
  let main_v15 : FVec F S20x256 .f32 := broadcastInDim S20x256 ![] bcast_S_S20x256 main_cst_4
  let main_v16 : IVec S20x256 1 := cmpf .olt main_v14 main_v15
  fn_part1 (F := F) main_arg7 main_v13 main_v16
-- ==== Kernel.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩
abbrev S64x512x16x1 : Shape := ⟨4, ![64, 512, 16, 1]⟩
abbrev S64x512x16x256 : Shape := ⟨4, ![64, 512, 16, 256]⟩
abbrev S64x512x1 : Shape := ⟨3, ![64, 512, 1]⟩
abbrev S64x512x256 : Shape := ⟨3, ![64, 512, 256]⟩
abbrev S1x20 : Shape := ⟨2, ![1, 20]⟩
abbrev S64x20 : Shape := ⟨2, ![64, 20]⟩
abbrev S16x64x16x256 : Shape := ⟨4, ![16, 64, 16, 256]⟩
abbrev S16x64x16x1 : Shape := ⟨4, ![16, 64, 16, 1]⟩
abbrev S16x64x256 : Shape := ⟨3, ![16, 64, 256]⟩
abbrev S16x64x1 : Shape := ⟨3, ![16, 64, 1]⟩
abbrev S16x20 : Shape := ⟨2, ![16, 20]⟩
abbrev S16x256 : Shape := ⟨2, ![16, 256]⟩
abbrev S256x20 : Shape := ⟨2, ![256, 20]⟩
abbrev S16 : Shape := ⟨1, ![16]⟩
abbrev S16x1 : Shape := ⟨2, ![16, 1]⟩

abbrev nBuf : Space → Nat
  | .hbm => 46
  | .vmem => 13
  | .smem => 0
  | _ => 0

abbrev bufTy : (tb : Table) → Fin (tcTables nBuf tb) → BufTy
  | .hbm, ⟨0, _⟩ => ⟨S64x512, .i32⟩
  | .hbm, ⟨1, _⟩ => ⟨S64x512x16, .i32⟩
  | .hbm, ⟨2, _⟩ => ⟨S64x512x16, .i32⟩
  | .hbm, ⟨3, _⟩ => ⟨S5000x256, .f32⟩
  | .hbm, ⟨4, _⟩ => ⟨S24990002x1, .f32⟩
  | .hbm, ⟨5, _⟩ => ⟨S5000x1, .f32⟩
  | .hbm, ⟨6, _⟩ => ⟨S20x256, .f32⟩
  | .hbm, ⟨7, _⟩ => ⟨S20, .f32⟩
  | .hbm, ⟨8, _⟩ => ⟨S_, .i32⟩
  | .hbm, ⟨9, _⟩ => ⟨S64x512x16, .i32⟩
  | .hbm, ⟨10, _⟩ => ⟨S64x512x16, .i1⟩
  | .hbm, ⟨11, _⟩ => ⟨S_, .i32⟩
  | .hbm, ⟨12, _⟩ => ⟨S64x512x16, .i32⟩
  | .hbm, ⟨13, _⟩ => ⟨S64x512x16, .i32⟩
  | .hbm, ⟨14, _⟩ => ⟨S64x512x16, .i32⟩
  | .hbm, ⟨15, _⟩ => ⟨S64x512x16x1, .i32⟩
  | .hbm, ⟨16, _⟩ => ⟨S64x512x16x256, .f32⟩
  | .hbm, ⟨17, _⟩ => ⟨S_, .i32⟩
  | .hbm, ⟨18, _⟩ => ⟨S64x512x16, .i32⟩
  | .hbm, ⟨19, _⟩ => ⟨S64x512x16, .i1⟩
  | .hbm, ⟨20, _⟩ => ⟨S_, .i32⟩
  | .hbm, ⟨21, _⟩ => ⟨S64x512x16, .i32⟩
  | .hbm, ⟨22, _⟩ => ⟨S64x512x16, .i32⟩
  | .hbm, ⟨23, _⟩ => ⟨S64x512x16, .i32⟩
  | .hbm, ⟨24, _⟩ => ⟨S64x512x16x1, .i32⟩
  | .hbm, ⟨25, _⟩ => ⟨S64x512x16x1, .f32⟩
  | .hbm, ⟨26, _⟩ => ⟨S_, .i32⟩
  | .hbm, ⟨27, _⟩ => ⟨S64x512, .i32⟩
  | .hbm, ⟨28, _⟩ => ⟨S64x512, .i1⟩
  | .hbm, ⟨29, _⟩ => ⟨S_, .i32⟩
  | .hbm, ⟨30, _⟩ => ⟨S64x512, .i32⟩
  | .hbm, ⟨31, _⟩ => ⟨S64x512, .i32⟩
  | .hbm, ⟨32, _⟩ => ⟨S64x512, .i32⟩
  | .hbm, ⟨33, _⟩ => ⟨S64x512x1, .i32⟩
  | .hbm, ⟨34, _⟩ => ⟨S64x512x256, .f32⟩
  | .hbm, ⟨35, _⟩ => ⟨S_, .i32⟩
  | .hbm, ⟨36, _⟩ => ⟨S64x512, .i32⟩
  | .hbm, ⟨37, _⟩ => ⟨S64x512, .i1⟩
  | .hbm, ⟨38, _⟩ => ⟨S_, .i32⟩
  | .hbm, ⟨39, _⟩ => ⟨S64x512, .i32⟩
  | .hbm, ⟨40, _⟩ => ⟨S64x512, .i32⟩
  | .hbm, ⟨41, _⟩ => ⟨S64x512, .i32⟩
  | .hbm, ⟨42, _⟩ => ⟨S64x512x1, .i32⟩
  | .hbm, ⟨43, _⟩ => ⟨S64x512x1, .f32⟩
  | .hbm, ⟨44, _⟩ => ⟨S1x20, .f32⟩
  | .hbm, ⟨45, _⟩ => ⟨S64x20, .f32⟩
  | .local _ .vmem, ⟨0, _⟩ => ⟨S16x64x16x256, .f32⟩
  | .local _ .vmem, ⟨1, _⟩ => ⟨S16x64x16x256, .f32⟩
  | .local _ .vmem, ⟨2, _⟩ => ⟨S16x64x16x1, .f32⟩
  | .local _ .vmem, ⟨3, _⟩ => ⟨S16x64x16x1, .f32⟩
  | .local _ .vmem, ⟨4, _⟩ => ⟨S16x64x256, .f32⟩
  | .local _ .vmem, ⟨5, _⟩ => ⟨S16x64x256, .f32⟩
  | .local _ .vmem, ⟨6, _⟩ => ⟨S16x64x1, .f32⟩
  | .local _ .vmem, ⟨7, _⟩ => ⟨S16x64x1, .f32⟩
  | .local _ .vmem, ⟨8, _⟩ => ⟨S20x256, .f32⟩
  | .local _ .vmem, ⟨9, _⟩ => ⟨S1x20, .f32⟩
  | .local _ .vmem, ⟨10, _⟩ => ⟨S16x20, .f32⟩
  | .local _ .vmem, ⟨11, _⟩ => ⟨S16x20, .f32⟩
  | .local _ .vmem, ⟨12, _⟩ => ⟨S16x256, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_20 : BitVec 32 := 0#32
  let v29 : BitVec 1 := Scalar.cmpi .ne v28 c0_i32_20
  v29

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x64x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S20x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S64x512x16 : S_.BroadcastsInDim S64x512x16 (![] : Fin 0 → Fin S64x512x16.rank)
  bcast_S64x512x16_S64x512x16x1_0_1_2 : S64x512x16.BroadcastsInDim S64x512x16x1 (![0, 1, 2] : Fin 3 → Fin S64x512x16x1.rank)
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  shapeCasts_S20_S1x20 : S20.ShapeCasts S1x20
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x64x16x256_S16x64x16x256_0_0_0_0 : ∀ a, (![0, 0, 0, 0] : Fin 4 → Nat) a + S16x64x16x256.size a ≤ S16x64x16x256.size a
  h_S16x64x16x256 : 0 < S16x64x16x256.numel
  shapeCasts_S16x64x16x256_S16x64x16x256 : S16x64x16x256.ShapeCasts S16x64x16x256
  inb_S16x64x16x1_S16x64x16x1_0_0_0_0 : ∀ a, (![0, 0, 0, 0] : Fin 4 → Nat) a + S16x64x16x1.size a ≤ S16x64x16x1.size a
  h_S16x64x16x1 : 0 < S16x64x16x1.numel
  shapeCasts_S16x64x16x1_S16x64x16x1 : S16x64x16x1.ShapeCasts S16x64x16x1
  broadcasts_S16x64x16x1_S16x64x16x256 : S16x64x16x1.Broadcasts S16x64x16x256
  reduces_S16x64x16x256_S16x64x256 : S16x64x16x256.Reduces [2] S16x64x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  inb_S16x64x1_S16x64x1_0_0_0 : ∀ a, (![0, 0, 0] : Fin 3 → Nat) a + S16x64x1.size a ≤ S16x64x1.size a
  h_S16x64x1 : 0 < S16x64x1.numel
  shapeCasts_S16x64x1_S16x64x1 : S16x64x1.ShapeCasts S16x64x1
  broadcasts_S16x64x1_S16x64x256 : S16x64x1.Broadcasts S16x64x256
  reduces_S16x64x256_S16x256 : S16x64x256.Reduces [1] S16x256
  inb_S20x256_S20x256_0_0 : ∀ a, (![0, 0] : Fin 2 → Nat) a + S20x256.size a ≤ S20x256.size a
  h_S20x256 : 0 < S20x256.numel
  transposes_S20x256_p1_0_S256x20 : S20x256.Transposes [1, 0] S256x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S16x20 : S1x20.Broadcasts S16x20
  reduces_S16x20_S16 : S16x20.Reduces [1] S16
  shapeCasts_S16_S16x1 : S16.ShapeCasts S16x1
  broadcasts_S16x1_S16x20 : S16x1.Broadcasts S16x20
  inb_S16x20_S16x20_0_0 : ∀ a, (![0, 0] : Fin 2 → Nat) a + S16x20.size a ≤ S16x20.size a
  h_S16x20 : 0 < S16x20.numel
  gather_S5000x256_S64x512x16x1_S64x512x16x256_3_0_n_n_0_3_1256_wf : GatherDims.WF S5000x256 S64x512x16x1 S64x512x16x256 [3] [0] [] [0] [] 3 ![1, 256]
  gather_S24990002x1_S64x512x16x1_S64x512x16x1_3_0_n_n_0_3_11_wf : GatherDims.WF S24990002x1 S64x512x16x1 S64x512x16x1 [3] [0] [] [0] [] 3 ![1, 1]
  gather_S5000x256_S64x512x1_S64x512x256_2_0_n_n_0_2_1256_wf : GatherDims.WF S5000x256 S64x512x1 S64x512x256 [2] [0] [] [0] [] 2 ![1, 256]
  gather_S5000x1_S64x512x1_S64x512x1_2_0_n_n_0_2_11_wf : GatherDims.WF S5000x1 S64x512x1 S64x512x1 [2] [0] [] [0] [] 2 ![1, 1]
  dot_S16x256_S256x20_S16x20_1_0_0_1_n_n_wf : DotDims.WF S16x256 S256x20 S16x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x16x256.size a ≤ S64x512x16x256.size a
  hwx0_0 : ∀ i : grid0.Coords, EltTy.bits .f32 = 32 ∨ (Rect.block (s := S64x512x16x256) S16x64x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x16x1.size a ≤ S64x512x16x1.size a
  hwx0_1 : ∀ i : grid0.Coords, EltTy.bits .f32 = 32 ∨ (Rect.block (s := S64x512x16x1) S16x64x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x256.size a ≤ S64x512x256.size a
  hwx0_2 : ∀ i : grid0.Coords, EltTy.bits .f32 = 32 ∨ (Rect.block (s := S64x512x256) S16x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x1.size a ≤ S64x512x1.size a
  hwx0_3 : ∀ i : grid0.Coords, EltTy.bits .f32 = 32 ∨ (Rect.block (s := S64x512x1) S16x64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x256.size a ≤ S20x256.size a
  hwx0_4 : ∀ i : grid0.Coords, EltTy.bits .f32 = 32 ∨ (Rect.block (s := S20x256) S20x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .f32 = 32 ∨ (Rect.block (s := S1x20) S1x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x20.size a ≤ S64x20.size a
  hwx0_6 : ∀ i : grid0.Coords, EltTy.bits .f32 = 32 ∨ (Rect.block (s := S64x20) S16x20.size (cc0_transform_6 i) (hinb0_6 i)).WholeWords (EltTy.packing .f32)

variable [Facts₀]

def gather_S5000x256_S64x512x16x1_S64x512x16x256_3_0_n_n_0_3_1256 : GatherDims S5000x256 S64x512x16x1 S64x512x16x256 where
  offsetDims := [3]
  collapsedSliceDims := [0]
  operandBatchingDims := []
  startIndicesBatchingDims := []
  startIndexMap := [0]
  indexVectorDim := 3
  sliceSizes := ![1, 256]
  wf := gather_S5000x256_S64x512x16x1_S64x512x16x256_3_0_n_n_0_3_1256_wf
def gather_S24990002x1_S64x512x16x1_S64x512x16x1_3_0_n_n_0_3_11 : GatherDims S24990002x1 S64x512x16x1 S64x512x16x1 where
  offsetDims := [3]
  collapsedSliceDims := [0]
  operandBatchingDims := []
  startIndicesBatchingDims := []
  startIndexMap := [0]
  indexVectorDim := 3
  sliceSizes := ![1, 1]
  wf := gather_S24990002x1_S64x512x16x1_S64x512x16x1_3_0_n_n_0_3_11_wf
def gather_S5000x256_S64x512x1_S64x512x256_2_0_n_n_0_2_1256 : GatherDims S5000x256 S64x512x1 S64x512x256 where
  offsetDims := [2]
  collapsedSliceDims := [0]
  operandBatchingDims := []
  startIndicesBatchingDims := []
  startIndexMap := [0]
  indexVectorDim := 2
  sliceSizes := ![1, 256]
  wf := gather_S5000x256_S64x512x1_S64x512x256_2_0_n_n_0_2_1256_wf
def gather_S5000x1_S64x512x1_S64x512x1_2_0_n_n_0_2_11 : GatherDims S5000x1 S64x512x1 S64x512x1 where
  offsetDims := [2]
  collapsedSliceDims := [0]
  operandBatchingDims := []
  startIndicesBatchingDims := []
  startIndexMap := [0]
  indexVectorDim := 2
  sliceSizes := ![1, 1]
  wf := gather_S5000x1_S64x512x1_S64x512x1_2_0_n_n_0_2_11_wf
def dot_S16x256_S256x20_S16x20_1_0_0_1_n_n : DotDims S16x256 S256x20 S16x20 where
  lhsContracting := [1]
  rhsContracting := [0]
  lhsNonContracting := [0]
  rhsNonContracting := [1]
  lhsBatch := []
  rhsBatch := []
  wf := dot_S16x256_S256x20_S16x20_1_0_0_1_n_n_wf

abbrev win0_0 : Pipeline.Window sig grid0 :=
  Pipeline.Window.ofSpec (Memref.whole main_v6) S16x64x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x64x16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S16x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S20x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S16x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S64x512 : Shape := ⟨2, ![64, 512]⟩
abbrev S64x512x16 : Shape := ⟨3, ![64, 512, 16]⟩
abbrev S5000x256 : Shape := ⟨2, ![5000, 256]⟩
abbrev S24990002x1 : Shape := ⟨2, ![24990002, 1]⟩
abbrev S5000x1 : Shape := ⟨2, ![5000, 1]⟩
abbrev S20x256 : Shape := ⟨2, ![20, 256]⟩
abbrev S20 : Shape := ⟨1, ![20]⟩
abbrev S_ : Shape := ⟨0, ![]⟩
abbrev S64x512x16x1 : Shape := ⟨4, ![64, 512, 16, 1]⟩
abbrev S64x512x16x256 : Shape := ⟨4, ![64, 512, 16, 256]⟩
abbrev S64x512x256 : Shape := ⟨3, ![64, 512, 256]⟩
abbrev S64x512x1 : Shape := ⟨3, ![64, 512, 1]⟩
abbrev S64x256 : Shape := ⟨2, ![64, 256]⟩
abbrev S256x20 : Shape := ⟨2, ![256, 20]⟩
abbrev S64x20 : Shape := ⟨2, ![64, 20]⟩
abbrev S1x20 : Shape := ⟨2, ![1, 20]⟩
abbrev S64 : Shape := ⟨1, ![64]⟩
abbrev S64x1 : Shape := ⟨2, ![64, 1]⟩

abbrev nBuf : Space → Nat
  | .hbm => 81
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S64x512x16, .i32⟩
  | .hbm, ⟨2, _⟩ => ⟨S64x512x16, .i32⟩
  | .hbm, ⟨3, _⟩ => ⟨S5000x256, .f32⟩
  | .hbm, ⟨4, _⟩ => ⟨S24990002x1, .f32⟩
  | .hbm, ⟨5, _⟩ => ⟨S5000x1, .f32⟩
  | .hbm, ⟨6, _⟩ => ⟨S20x256, .f32⟩
  | .hbm, ⟨7, _⟩ => ⟨S20, .f32⟩
  | .hbm, ⟨8, _⟩ => ⟨S_, .i32⟩
  | .hbm, ⟨9, _⟩ => ⟨S64x512x16, .i32⟩
  | .hbm, ⟨10, _⟩ => ⟨S64x512x16, .i1⟩
  | .hbm, ⟨11, _⟩ => ⟨S_, .i32⟩
  | .hbm, ⟨12, _⟩ => ⟨S64x512x16, .i32⟩
  | .hbm, ⟨13, _⟩ => ⟨S64x512x16, .i32⟩
  | .hbm, ⟨14, _⟩ => ⟨S64x512x16, .i32⟩
  | .hbm, ⟨15, _⟩ => ⟨S64x512x16x1, .i32⟩
  | .hbm, ⟨16, _⟩ => ⟨S64x512x16x256, .f32⟩
  | .hbm, ⟨17, _⟩ => ⟨S_, .i32⟩
  | .hbm, ⟨18, _⟩ => ⟨S64x512x16, .i32⟩
  | .hbm, ⟨19, _⟩ => ⟨S64x512x16, .i1⟩
  | .hbm, ⟨20, _⟩ => ⟨S_, .i32⟩
  | .hbm, ⟨21, _⟩ => ⟨S64x512x16, .i32⟩
  | .hbm, ⟨22, _⟩ => ⟨S64x512x16, .i32⟩
  | .hbm, ⟨23, _⟩ => ⟨S64x512x16, .i32⟩
  | .hbm, ⟨24, _⟩ => ⟨S64x512x16x1, .i32⟩
  | .hbm, ⟨25, _⟩ => ⟨S64x512x16x1, .f32⟩
  | .hbm, ⟨26, _⟩ => ⟨S64x512x16x256, .f32⟩
  | .hbm, ⟨27, _⟩ => ⟨S64x512x16x256, .f32⟩
  | .hbm, ⟨28, _⟩ => ⟨S_, .f32⟩
  | .hbm, ⟨29, _⟩ => ⟨S64x512x256, .f32⟩
  | .hbm, ⟨30, _⟩ => ⟨S_, .i32⟩
  | .hbm, ⟨31, _⟩ => ⟨S64x512, .i32⟩
  | .hbm, ⟨32, _⟩ => ⟨S64x512, .i1⟩
  | .hbm, ⟨33, _⟩ => ⟨S_, .i32⟩
  | .hbm, ⟨34, _⟩ => ⟨S64x512, .i32⟩
  | .hbm, ⟨35, _⟩ => ⟨S64x512, .i32⟩
  | .hbm, ⟨36, _⟩ => ⟨S64x512, .i32⟩
  | .hbm, ⟨37, _⟩ => ⟨S64x512x1, .i32⟩
  | .hbm, ⟨38, _⟩ => ⟨S64x512x256, .f32⟩
  | .hbm, ⟨39, _⟩ => ⟨S_, .i32⟩
  | .hbm, ⟨40, _⟩ => ⟨S64x512, .i32⟩
  | .hbm, ⟨41, _⟩ => ⟨S64x512, .i1⟩
  | .hbm, ⟨42, _⟩ => ⟨S_, .i32⟩
  | .hbm, ⟨43, _⟩ => ⟨S64x512, .i32⟩
  | .hbm, ⟨44, _⟩ => ⟨S64x512, .i32⟩
  | .hbm, ⟨45, _⟩ => ⟨S64x512, .i32⟩
  | .hbm, ⟨46, _⟩ => ⟨S64x512x1, .i32⟩
  | .hbm, ⟨47, _⟩ => ⟨S64x512x1, .f32⟩
  | .hbm, ⟨48, _⟩ => ⟨S_, .f32⟩
  | .hbm, ⟨49, _⟩ => ⟨S64x512x1, .f32⟩
  | .hbm, ⟨50, _⟩ => ⟨S64x512x1, .f32⟩
  | .hbm, ⟨51, _⟩ => ⟨S64x512x256, .f32⟩
  | .hbm, ⟨52, _⟩ => ⟨S64x512x256, .f32⟩
  | .hbm, ⟨53, _⟩ => ⟨S64x512x256, .f32⟩
  | .hbm, ⟨54, _⟩ => ⟨S64x512x256, .f32⟩
  | .hbm, ⟨55, _⟩ => ⟨S64x512x256, .f32⟩
  | .hbm, ⟨56, _⟩ => ⟨S_, .f32⟩
  | .hbm, ⟨57, _⟩ => ⟨S64x256, .f32⟩
  | .hbm, ⟨58, _⟩ => ⟨S256x20, .f32⟩
  | .hbm, ⟨59, _⟩ => ⟨S64x20, .f32⟩
  | .hbm, ⟨60, _⟩ => ⟨S1x20, .f32⟩
  | .hbm, ⟨61, _⟩ => ⟨S64x20, .f32⟩
  | .hbm, ⟨62, _⟩ => ⟨S64x20, .f32⟩
  | .hbm, ⟨63, _⟩ => ⟨S_, .f32⟩
  | .hbm, ⟨64, _⟩ => ⟨S64x20, .f32⟩
  | .hbm, ⟨65, _⟩ => ⟨S64x20, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64x1, .f32⟩
  | .hbm, ⟨72, _⟩ => ⟨S64x20, .f32⟩
  | .hbm, ⟨73, _⟩ => ⟨S64x20, .f32⟩
  | .hbm, ⟨74, _⟩ => ⟨S64x20, .f32⟩
  | .hbm, ⟨75, _⟩ => ⟨S_, .f32⟩
  | .hbm, ⟨76, _⟩ => ⟨S64, .f32⟩
  | .hbm, ⟨77, _⟩ => ⟨S64x1, .f32⟩
  | .hbm, ⟨78, _⟩ => ⟨S64x1, .f32⟩
  | .hbm, ⟨79, _⟩ => ⟨S64x20, .f32⟩
  | .hbm, ⟨80, _⟩ => ⟨S64x20, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v45 : Ref sig .tc := ⟨.hbm, 80, rfl⟩

abbrev nD : Nat := 1
abbrev τ : Topo := Topo.v7x

variable {F : FTy → Type} [FloatOps F]

class Facts₀ : Prop where
  bcast_S_S64x512x16 : S_.BroadcastsInDim S64x512x16 (![] : Fin 0 → Fin S64x512x16.rank)
  bcast_S64x512x16_S64x512x16x1_0_1_2 : S64x512x16.BroadcastsInDim S64x512x16x1 (![0, 1, 2] : Fin 3 → Fin S64x512x16x1.rank)
  bcast_S64x512x16x1_S64x512x16x256_0_1_2_3 : S64x512x16x1.BroadcastsInDim S64x512x16x256 (![0, 1, 2, 3] : Fin 4 → Fin S64x512x16x256.rank)
  reducesTo_S64x512x16x256_S64x512x256_d2 : S64x512x16x256.ReducesTo [2] S64x512x256
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x256_0_1_2 : S64x512x1.BroadcastsInDim S64x512x256 (![0, 1, 2] : Fin 3 → Fin S64x512x256.rank)
  reducesTo_S64x512x256_S64x256_d1 : S64x512x256.ReducesTo [1] S64x256
  transposes_S20x256_S256x20_1_0 : S20x256.Transposes [1, 0] S256x20
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  bcast_S_S64x20 : S_.BroadcastsInDim S64x20 (![] : Fin 0 → Fin S64x20.rank)
  reducesTo_S64x20_S64_d1 : S64x20.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  gather_S5000x256_S64x512x16x1_S64x512x16x256_3_0_n_n_0_3_1256_wf : GatherDims.WF S5000x256 S64x512x16x1 S64x512x16x256 [3] [0] [] [0] [] 3 ![1, 256]
  gather_S24990002x1_S64x512x16x1_S64x512x16x1_3_0_n_n_0_3_11_wf : GatherDims.WF S24990002x1 S64x512x16x1 S64x512x16x1 [3] [0] [] [0] [] 3 ![1, 1]
  gather_S5000x256_S64x512x1_S64x512x256_2_0_n_n_0_2_1256_wf : GatherDims.WF S5000x256 S64x512x1 S64x512x256 [2] [0] [] [0] [] 2 ![1, 256]
  gather_S5000x1_S64x512x1_S64x512x1_2_0_n_n_0_2_11_wf : GatherDims.WF S5000x1 S64x512x1 S64x512x1 [2] [0] [] [0] [] 2 ![1, 1]
  dot_S64x256_S256x20_S64x20_1_0_0_1_n_n_wf : DotDims.WF S64x256 S256x20 S64x20 [1] [0] [0] [1] [] []

variable [Facts₀]

def gather_S5000x256_S64x512x16x1_S64x512x16x256_3_0_n_n_0_3_1256 : GatherDims S5000x256 S64x512x16x1 S64x512x16x256 where
  offsetDims := [3]
  collapsedSliceDims := [0]
  operandBatchingDims := []
  startIndicesBatchingDims := []
  startIndexMap := [0]
  indexVectorDim := 3
  sliceSizes := ![1, 256]
  wf := gather_S5000x256_S64x512x16x1_S64x512x16x256_3_0_n_n_0_3_1256_wf
def gather_S24990002x1_S64x512x16x1_S64x512x16x1_3_0_n_n_0_3_11 : GatherDims S24990002x1 S64x512x16x1 S64x512x16x1 where
  offsetDims := [3]
  collapsedSliceDims := [0]
  operandBatchingDims := []
  startIndicesBatchingDims := []
  startIndexMap := [0]
  indexVectorDim := 3
  sliceSizes := ![1, 1]
  wf := gather_S24990002x1_S64x512x16x1_S64x512x16x1_3_0_n_n_0_3_11_wf
def gather_S5000x256_S64x512x1_S64x512x256_2_0_n_n_0_2_1256 : GatherDims S5000x256 S64x512x1 S64x512x256 where
  offsetDims := [2]
  collapsedSliceDims := [0]
  operandBatchingDims := []
  startIndicesBatchingDims := []
  startIndexMap := [0]
  indexVectorDim := 2
  sliceSizes := ![1, 256]
  wf := gather_S5000x256_S64x512x1_S64x512x256_2_0_n_n_0_2_1256_wf
def gather_S5000x1_S64x512x1_S64x512x1_2_0_n_n_0_2_11 : GatherDims S5000x1 S64x512x1 S64x512x1 where
  offsetDims := [2]
  collapsedSliceDims := [0]
  operandBatchingDims := []
  startIndicesBatchingDims := []
  startIndexMap := [0]
  indexVectorDim := 2
  sliceSizes := ![1, 1]
  wf := gather_S5000x1_S64x512x1_S64x512x1_2_0_n_n_0_2_11_wf
def dot_S64x256_S256x20_S64x20_1_0_0_1_n_n : DotDims S64x256 S256x20 S64x20 where
  lhsContracting := [1]
  rhsContracting := [0]
  lhsNonContracting := [0]
  rhsNonContracting := [1]
  lhsBatch := []
  rhsBatch := []
  wf := dot_S64x256_S256x20_S64x20_1_0_0_1_n_n_wf

class Facts : Prop extends Facts₀ where

variable [Facts]
-- ==== Proof.Spec.lean ====
/-
  The mathematics both programs compute, over plain coordinate functions on the extended reals.

  A node (r, s) mixes the largest edge-weighted neighbour embedding with its own embedding:
    mix r s d = (1 - w r s) * (max over n of Ra r s n d * Ean r s n) + w r s * Rn r s d,
  the sequence axis is pooled by a sum, a linear layer and a ramp give non-negative scores X r c, and the result is
  the logarithm of the softmax of a row of scores. The two programs spell that last step differently:
    X - (M + L)   and   (X - M) - L,   M the row's maximum, L = log (sum of exp (X - M)).
  On the extended reals these agree as soon as M is a real number (negation distributes over M + L then, and
  addition is associative everywhere), and M is real when every score is, which holds when every input entry is:
  finite sums, products, differences and maxima of reals are reals, and a maximum from bottom over a non-empty
  index set of reals is a real.
-/
import Idealize.ShloMosaic.PureOps.Ideal
import Idealize.ShloMosaic.Lib.ValueIdx

noncomputable section

open scoped BigOperators
open Idealize.ShloMosaic

namespace Cert.Gnn

/-! ## Extended reals that are real numbers -/

/-- The extended real is a real number. -/
def IsReal (x : EReal) : Prop := ∃ r : ℝ, x = (r : EReal)

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x :=
  ⟨x.toReal, (EReal.coe_toReal ht hb).symm⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals is a real. -/
theorem isReal_sum {ι : Type} (s : Finset ι) (f : ι → EReal) (h : ∀ i ∈ s, IsReal (f i)) :
    IsReal (∑ i ∈ s, f i) :=
  Finset.sum_induction f IsReal (fun _ _ => IsReal.add) isReal_zero h

/-- The maximum, from bottom, of reals over a non-empty finite index set is a real: it is above one of them and
    below top because each of them is. -/
theorem isReal_fold_max {ι : Type} [Fintype ι] [Nonempty ι] (f : ι → EReal) (h : ∀ i, IsReal (f i)) :
    IsReal ((Finset.univ : Finset ι).fold max ⊥ f) := by
  refine isReal_of_ne (ne_of_gt ?_) (ne_of_lt ?_)
  · exact (Finset.lt_fold_max _).2 (Or.inr ⟨Classical.arbitrary ι, Finset.mem_univ _,
      bot_lt_iff_ne_bot.2 (h _).ne_bot⟩)
  · exact (Finset.fold_max_lt _).2 ⟨bot_lt_top, fun i _ => lt_top_iff_ne_top.2 (h i).ne_top⟩

/-- Subtracting a sum whose first term is a real is subtracting its terms one after the other. -/
theorem sub_add_eq_sub_sub_of_isReal {x m l : EReal} (hm : IsReal m) : x - (m + l) = x - m - l := by
  obtain ⟨r, rfl⟩ := hm
  rw [sub_eq_add_neg, EReal.neg_add (Or.inl (EReal.coe_ne_bot r)) (Or.inl (EReal.coe_ne_top r)),
    sub_eq_add_neg (-(r : EReal)) l, ← add_assoc, ← sub_eq_add_neg, ← sub_eq_add_neg]

/-! ## The computation, by coordinates -/

section Forms

variable {ρ σ ν δ γ : Type} [Fintype σ] [Fintype ν] [Fintype δ] [Fintype γ]

/-- The largest edge-weighted neighbour embedding of node (r, s), feature d: the maximum from bottom. -/
def nbrMax (Ra : ρ → σ → ν → δ → EReal) (Ean : ρ → σ → ν → EReal) (r : ρ) (s : σ) (d : δ) : EReal :=
  (Finset.univ : Finset ν).fold max ⊥ fun n => Ra r s n d * Ean r s n

/-- The node's mixture of that maximum and its own embedding, by its node weight. -/
def mix (Ra : ρ → σ → ν → δ → EReal) (Ean : ρ → σ → ν → EReal) (Rn : ρ → σ → δ → EReal) (Nn : ρ → σ → EReal)
    (r : ρ) (s : σ) (d : δ) : EReal :=
  (1 - Nn r s) * nbrMax Ra Ean r s d + Nn r s * Rn r s d

/-- The sum of the mixtures over the sequence axis. -/
def pooled (Ra : ρ → σ → ν → δ → EReal) (Ean : ρ → σ → ν → EReal) (Rn : ρ → σ → δ → EReal) (Nn : ρ → σ → EReal)
    (r : ρ) (d : δ) : EReal :=
  ∑ s, mix Ra Ean Rn Nn r s d

/-- The linear layer: a row of pooled features against the weight rows, plus the bias. -/
def logit (P : ρ → δ → EReal) (W : γ → δ → EReal) (b : γ → EReal) (r : ρ) (c : γ) : EReal :=
  ∑ d, P r d * W c d + b c

/-- The ramp. -/
def act (Z : ρ → γ → EReal) (r : ρ) (c : γ) : EReal := max (Z r c) 0

/-- A row's maximum, from bottom. -/
def rowMax (X : ρ → γ → EReal) (r : ρ) : EReal := (Finset.univ : Finset γ).fold max ⊥ fun c => X r c

/-- The logarithm of the row's sum of exponentials of the scores shifted by the row's maximum. -/
def lseShift (X : ρ → γ → EReal) (r : ρ) : EReal := Ideal.log (∑ c, Ideal.exp (X r c - rowMax X r))

/-- The log-softmax spelt as score minus (maximum plus shifted log-sum-exp). -/
def lsmK (X : ρ → γ → EReal) (r : ρ) (c : γ) : EReal := X r c - (rowMax X r + lseShift X r)

/-- The log-softmax spelt as (score minus maximum) minus shifted log-sum-exp. -/
def lsmR (X : ρ → γ → EReal) (r : ρ) (c : γ) : EReal := X r c - rowMax X r - lseShift X r

/-- The whole computation, its last step in the first spelling. -/
def kernelForm (Ra : ρ → σ → ν → δ → EReal) (Ean : ρ → σ → ν → EReal) (Rn : ρ → σ → δ → EReal) (Nn : ρ → σ → EReal)
    (W : γ → δ → EReal) (b : γ → EReal) : ρ → γ → EReal :=
  lsmK (act (logit (pooled Ra Ean Rn Nn) W b))

/-- The whole computation, its last step in the second spelling. -/
def refForm (Ra : ρ → σ → ν → δ → EReal) (Ean : ρ → σ → ν → EReal) (Rn : ρ → σ → δ → EReal) (Nn : ρ → σ → EReal)
    (W : γ → δ → EReal) (b : γ → EReal) : ρ → γ → EReal :=
  lsmR (act (logit (pooled Ra Ean Rn Nn) W b))

/-- The last three layers at a row depend on that row of pooled features only. -/
theorem lsmK_act_logit_congr {ρ' : Type} (P : ρ → δ → EReal) (P' : ρ' → δ → EReal) (W : γ → δ → EReal) (b : γ → EReal)
    (r : ρ) (r' : ρ') (h : ∀ d, P' r' d = P r d) (c : γ) :
    lsmK (act (logit P' W b)) r' c = lsmK (act (logit P W b)) r c := by
  simp only [lsmK, lseShift, rowMax, act, logit, h]

/-- With real scores in a non-empty row the two spellings of the log-softmax agree. -/
theorem lsmK_eq_lsmR [Nonempty γ] (X : ρ → γ → EReal) (hX : ∀ r c, IsReal (X r c)) : lsmK X = lsmR X := by
  funext r c
  exact sub_add_eq_sub_sub_of_isReal (isReal_fold_max _ fun c => hX r c)

theorem isReal_mix [Nonempty ν] {Ra : ρ → σ → ν → δ → EReal} {Ean : ρ → σ → ν → EReal} {Rn : ρ → σ → δ → EReal}
    {Nn : ρ → σ → EReal} (hRa : ∀ r s n d, IsReal (Ra r s n d)) (hEan : ∀ r s n, IsReal (Ean r s n))
    (hRn : ∀ r s d, IsReal (Rn r s d)) (hNn : ∀ r s, IsReal (Nn r s)) (r : ρ) (s : σ) (d : δ) :
    IsReal (mix Ra Ean Rn Nn r s d) :=
  ((isReal_one.sub (hNn r s)).mul (isReal_fold_max _ fun n => (hRa r s n d).mul (hEan r s n))).add
    ((hNn r s).mul (hRn r s d))

/-- Real inputs give real scores. -/
theorem isReal_scores [Nonempty ν] {Ra : ρ → σ → ν → δ → EReal} {Ean : ρ → σ → ν → EReal} {Rn : ρ → σ → δ → EReal}
    {Nn : ρ → σ → EReal} {W : γ → δ → EReal} {b : γ → EReal}
    (hRa : ∀ r s n d, IsReal (Ra r s n d)) (hEan : ∀ r s n, IsReal (Ean r s n))
    (hRn : ∀ r s d, IsReal (Rn r s d)) (hNn : ∀ r s, IsReal (Nn r s))
    (hW : ∀ c d, IsReal (W c d)) (hb : ∀ c, IsReal (b c)) (r : ρ) (c : γ) :
    IsReal (act (logit (pooled Ra Ean Rn Nn) W b) r c) :=
  (((isReal_sum _ _ fun d _ => (isReal_sum _ _ fun s _ => isReal_mix hRa hEan hRn hNn r s d).mul (hW c d)).add
    (hb c)).max isReal_zero)

/-- THE LAW THAT JOINS THE TWO SIDES: on real inputs the two spellings are one function. -/
theorem kernelForm_eq_refForm [Nonempty ν] [Nonempty γ] {Ra : ρ → σ → ν → δ → EReal} {Ean : ρ → σ → ν → EReal}
    {Rn : ρ → σ → δ → EReal} {Nn : ρ → σ → EReal} {W : γ → δ → EReal} {b : γ → EReal}
    (hRa : ∀ r s n d, IsReal (Ra r s n d)) (hEan : ∀ r s n, IsReal (Ean r s n))
    (hRn : ∀ r s d, IsReal (Rn r s d)) (hNn : ∀ r s, IsReal (Nn r s))
    (hW : ∀ c d, IsReal (W c d)) (hb : ∀ c, IsReal (b c)) :
    kernelForm Ra Ean Rn Nn W b = refForm Ra Ean Rn Nn W b :=
  lsmK_eq_lsmR _ (isReal_scores hRa hEan hRn hNn hW hb)

end Forms

/-! ## Arrays read by coordinates, and the constants' values -/

open ValueIdx

/-- A rank-4 array as a function of its four coordinates. -/
abbrev c4 {n0 n1 n2 n3 : Nat} (A : (⟨4, ![n0, n1, n2, n3]⟩ : Shape).Idx → EReal) :
    Fin n0 → Fin n1 → Fin n2 → Fin n3 → EReal := fun a b c d => A (ix4 a b c d)
/-- A rank-4 array whose last axis has one entry, as a function of the other three coordinates. -/
abbrev c4u {n0 n1 n2 : Nat} (A : (⟨4, ![n0, n1, n2, 1]⟩ : Shape).Idx → EReal) :
    Fin n0 → Fin n1 → Fin n2 → EReal := fun a b c => A (ix4 a b c 0)
/-- A rank-3 array as a function of its three coordinates. -/
abbrev c3 {n0 n1 n2 : Nat} (A : (⟨3, ![n0, n1, n2]⟩ : Shape).Idx → EReal) :
    Fin n0 → Fin n1 → Fin n2 → EReal := fun a b c => A (ix3 a b c)
/-- A rank-3 array whose last axis has one entry, as a function of the other two coordinates. -/
abbrev c3u {n0 n1 : Nat} (A : (⟨3, ![n0, n1, 1]⟩ : Shape).Idx → EReal) :
    Fin n0 → Fin n1 → EReal := fun a b => A (ix3 a b 0)
/-- A rank-2 array as a function of its two coordinates. -/
abbrev c2 {n0 n1 : Nat} (A : (⟨2, ![n0, n1]⟩ : Shape).Idx → EReal) : Fin n0 → Fin n1 → EReal :=
  fun a b => A (ix2 a b)
/-- A one-row rank-2 array as a function of the column. -/
abbrev c2row {n : Nat} (A : (⟨2, ![1, n]⟩ : Shape).Idx → EReal) : Fin n → EReal := fun b => A (ix2 0 b)
/-- A rank-1 array as a function of its coordinate. -/
abbrev c1 {n : Nat} (A : (⟨1, ![n]⟩ : Shape).Idx → EReal) : Fin n → EReal := fun a => A (ix1 a)

/-- The f32 pattern of one is the real one. -/
theorem ofBits_one_f32 : Ideal.ofBits .f32 0x3F800000#32 = 1 := by
  simp [Ideal.ofBits, Ideal.ieee]
  rw [← EReal.coe_mul]
  norm_num

/-- The f32 pattern of minus infinity is bottom. -/
theorem ofBits_neg_inf_f32 : Ideal.ofBits .f32 0xFF800000#32 = ⊥ := by
  simp [Ideal.ofBits, Ideal.ieee]

/-- A sum over 512 positions is the sum over eight runs of sixty-four. -/
theorem sum_512_eq (f : Fin 512 → EReal) :
    ∑ s : Fin 512, f s = ∑ k : Fin 8, ∑ j : Fin 64, f ⟨64 * k.val + j.val, by have := k.isLt; have := j.isLt; omega⟩ := by
  rw [← Fintype.sum_prod_type' (f := fun (k : Fin 8) (j : Fin 64) => f ⟨64 * k.val + j.val, by have := k.isLt; have := j.isLt; omega⟩)]
  refine (Fintype.sum_equiv (finProdFinEquiv (m := 8) (n := 64)) _ _ fun p => ?_).symm
  refine congrArg f (Fin.ext ?_)
  show 64 * p.1.val + p.2.val = p.2.val + 64 * p.1.val
  omega

end Cert.Gnn

end
-- ==== Proof.KernelBlocks.lean ====
/-
  The arrays the kernel stages and their blocks, by coordinates.

  The grid is 4 row blocks of sixteen batch rows by 8 sequence blocks of sixty-four positions, point t = 8 q + k:
  the four data windows read rows 16 q .. 16 q + 15 and positions 64 k .. 64 k + 63, the two parameter windows
  always read the whole parameter. A point's addend is what it contributes to the pooled features of its sixteen
  rows: at (b, d) the sum over its sixty-four positions of the node mixtures.
-/
import proofs.«130229_j41832981463504_1_alg».proof.Proof.Gen.KernelIdeal.Value
import proofs.«130229_j41832981463504_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.GnnValue

open Cert.KernelIdeal Cert.KernelIdeal.Gen Cert.KernelIdeal.Value Cert.Gnn

variable (m : (ℓ : Loc nD τ sig) → Buf (Elt Ideal) ℓ) (ρ : Dev nD → PrngReg)

/-! ## The staged arrays and their blocks, under their literal types -/

/-- Neighbour embeddings, edge weights, own embeddings, node weights, classifier weights, bias row: the arrays
    the region finds. -/
abbrev Ra (c : Dev nD) : S64x512x16x256.Idx → EReal := V m c main_v6
abbrev Ean (c : Dev nD) : S64x512x16x1.Idx → EReal := V m c main_v13
abbrev Rn (c : Dev nD) : S64x512x256.Idx → EReal := V m c main_v20
abbrev Nn (c : Dev nD) : S64x512x1.Idx → EReal := V m c main_v27
abbrev Wt (c : Dev nD) : S20x256.Idx → EReal := V m c main_arg6
abbrev Bi (c : Dev nD) : S1x20.Idx → EReal := V m c main_v28

/-- Their blocks at grid point `t`. -/
abbrev xb0 (c : Dev nD) (t : Fin cfg0.N) : S16x64x16x256.Idx → EReal := iblk m c 0 t
abbrev xb1 (c : Dev nD) (t : Fin cfg0.N) : S16x64x16x1.Idx → EReal := iblk m c 1 t
abbrev xb2 (c : Dev nD) (t : Fin cfg0.N) : S16x64x256.Idx → EReal := iblk m c 2 t
abbrev xb3 (c : Dev nD) (t : Fin cfg0.N) : S16x64x1.Idx → EReal := iblk m c 3 t
abbrev xb4 (c : Dev nD) (t : Fin cfg0.N) : S20x256.Idx → EReal := iblk m c 4 t
abbrev xb5 (c : Dev nD) (t : Fin cfg0.N) : S1x20.Idx → EReal := iblk m c 5 t

/-- The printed index maps over the grid: point `t` is row block `t / 8`, sequence block `t % 8`; the two
    parameter windows stay at block zero; the output's block is the row block. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = t.val % 8
    ∧ win0_1.index t (2 : Fin 4) = 0 ∧ win0_1.index t (3 : Fin 4) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

/-- Batch row `b` of point `t`'s row block, and position `s` of its sequence block, in the whole arrays. -/
abbrev rowOf (t : Fin cfg0.N) (b : Fin 16) : Fin 64 :=
  ⟨16 * (t.val / 8) + b.val, by have h := lt_of_lt_of_eq t.isLt (show cfg0.N = 32 from N_0); have := b.isLt; omega⟩
abbrev posOf (t : Fin cfg0.N) (s : Fin 64) : Fin 512 :=
  ⟨64 * (t.val % 8) + s.val, by have := s.isLt; omega⟩

/-- Each block entry is the array's entry at the block's offset plus the coordinate inside the block. -/
theorem xb0_apply (c : Dev nD) (t : Fin cfg0.N) (b : Fin 16) (s : Fin 64) (n : Fin 16) (d : Fin 256) :
    xb0 m c t (ix4 b s n d) = Ra m c (ix4 (rowOf t b) (posOf t s) n d) := by
  obtain ⟨e0, e1, e2, e3, -⟩ := idx_facts t
  show V m c main_v6 (((cfg0.win 0).blk t).view.emb (ix4 b s n d)) = V m c main_v6 (ix4 (rowOf t b) (posOf t s) n d)
  refine congrArg (V m c main_v6) (funext fun a => Fin.ext ?_)
  match a with
  | ⟨0, _⟩ => show win0_0.index t (0 : Fin 4) * 16 + 1 * b.val = 16 * (t.val / 8) + b.val; omega
  | ⟨1, _⟩ => show win0_0.index t (1 : Fin 4) * 64 + 1 * s.val = 64 * (t.val % 8) + s.val; omega
  | ⟨2, _⟩ => show win0_0.index t (2 : Fin 4) * 16 + 1 * n.val = n.val; omega
  | ⟨3, _⟩ => show win0_0.index t (3 : Fin 4) * 256 + 1 * d.val = d.val; omega

theorem xb1_apply (c : Dev nD) (t : Fin cfg0.N) (b : Fin 16) (s : Fin 64) (n : Fin 16) :
    xb1 m c t (ix4 b s n 0) = Ean m c (ix4 (rowOf t b) (posOf t s) n 0) := by
  obtain ⟨-, -, -, -, e0, e1, e2, e3, -⟩ := idx_facts t
  show V m c main_v13 (((cfg0.win 1).blk t).view.emb (ix4 b s n 0)) = V m c main_v13 (ix4 (rowOf t b) (posOf t s) n 0)
  refine congrArg (V m c main_v13) (funext fun a => Fin.ext ?_)
  match a with
  | ⟨0, _⟩ => show win0_1.index t (0 : Fin 4) * 16 + 1 * b.val = 16 * (t.val / 8) + b.val; omega
  | ⟨1, _⟩ => show win0_1.index t (1 : Fin 4) * 64 + 1 * s.val = 64 * (t.val % 8) + s.val; omega
  | ⟨2, _⟩ => show win0_1.index t (2 : Fin 4) * 16 + 1 * n.val = n.val; omega
  | ⟨3, _⟩ => show win0_1.index t (3 : Fin 4) * 1 + 1 * 0 = 0; omega

theorem xb2_apply (c : Dev nD) (t : Fin cfg0.N) (b : Fin 16) (s : Fin 64) (d : Fin 256) :
    xb2 m c t (ix3 b s d) = Rn m c (ix3 (rowOf t b) (posOf t s) d) := by
  obtain ⟨-, -, -, -, -, -, -, -, e0, e1, e2, -⟩ := idx_facts t
  show V m c main_v20 (((cfg0.win 2).blk t).view.emb (ix3 b s d)) = V m c main_v20 (ix3 (rowOf t b) (posOf t s) d)
  refine congrArg (V m c main_v20) (funext fun a => Fin.ext ?_)
  match a with
  | ⟨0, _⟩ => show win0_2.index t (0 : Fin 3) * 16 + 1 * b.val = 16 * (t.val / 8) + b.val; omega
  | ⟨1, _⟩ => show win0_2.index t (1 : Fin 3) * 64 + 1 * s.val = 64 * (t.val % 8) + s.val; omega
  | ⟨2, _⟩ => show win0_2.index t (2 : Fin 3) * 256 + 1 * d.val = d.val; omega

theorem xb3_apply (c : Dev nD) (t : Fin cfg0.N) (b : Fin 16) (s : Fin 64) :
    xb3 m c t (ix3 b s 0) = Nn m c (ix3 (rowOf t b) (posOf t s) 0) := by
  obtain ⟨-, -, -, -, -, -, -, -, -, -, -, e0, e1, e2, -⟩ := idx_facts t
  show V m c main_v27 (((cfg0.win 3).blk t).view.emb (ix3 b s 0)) = V m c main_v27 (ix3 (rowOf t b) (posOf t s) 0)
  refine congrArg (V m c main_v27) (funext fun a => Fin.ext ?_)
  match a with
  | ⟨0, _⟩ => show win0_3.index t (0 : Fin 3) * 16 + 1 * b.val = 16 * (t.val / 8) + b.val; omega
  | ⟨1, _⟩ => show win0_3.index t (1 : Fin 3) * 64 + 1 * s.val = 64 * (t.val % 8) + s.val; omega
  | ⟨2, _⟩ => show win0_3.index t (2 : Fin 3) * 1 + 1 * 0 = 0; omega

theorem xb4_apply (c : Dev nD) (t : Fin cfg0.N) (k : Fin 20) (d : Fin 256) :
    xb4 m c t (ix2 k d) = Wt m c (ix2 k d) := by
  obtain ⟨-, -, -, -, -, -, -, -, -, -, -, -, -, -, e0, e1, -⟩ := idx_facts t
  show V m c main_arg6 (((cfg0.win 4).blk t).view.emb (ix2 k d)) = V m c main_arg6 (ix2 k d)
  refine congrArg (V m c main_arg6) (funext fun a => Fin.ext ?_)
  match a with
  | ⟨0, _⟩ => show win0_4.index t (0 : Fin 2) * 20 + 1 * k.val = k.val; omega
  | ⟨1, _⟩ => show win0_4.index t (1 : Fin 2) * 256 + 1 * d.val = d.val; omega

theorem xb5_apply (c : Dev nD) (t : Fin cfg0.N) (k : Fin 20) :
    xb5 m c t (ix2 0 k) = Bi m c (ix2 0 k) := by
  obtain ⟨-, -, -, -, -, -, -, -, -, -, -, -, -, -, -, -, e0, e1, -⟩ := idx_facts t
  show V m c main_v28 (((cfg0.win 5).blk t).view.emb (ix2 0 k)) = V m c main_v28 (ix2 0 k)
  refine congrArg (V m c main_v28) (funext fun a => Fin.ext ?_)
  match a with
  | ⟨0, _⟩ => show win0_5.index t (0 : Fin 2) * 1 + 1 * 0 = 0; omega
  | ⟨1, _⟩ => show win0_5.index t (1 : Fin 2) * 20 + 1 * k.val = k.val; omega

/-- Point `n`'s contribution to the pooled features of its sixteen rows (zero past the grid). -/
def addend (c : Dev nD) (n : ℕ) : S16x256.Idx → EReal := fun j =>
  if h : n < cfg0.N then
    ∑ s : Fin 64, mix (c4 (xb0 m c ⟨n, h⟩)) (c4u (xb1 m c ⟨n, h⟩)) (c3 (xb2 m c ⟨n, h⟩)) (c3u (xb3 m c ⟨n, h⟩)) (j 0) s (j 1)
  else 0

end Cert.KernelIdeal.GnnValue

end
-- ==== Proof.KernelPieces.lean ====
/-
  What each control case of the kernel body leaves behind, as values: the pooled-feature scratch after a point is the
  accumulate payload of the point's four input blocks over what the scratch held (over the zero block at a run's first
  point, where the body has just stored it), and at a run's last point the output block is the classifier payload of
  that scratch and the two parameter blocks.
-/
import proofs.«130229_j41832981463504_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-! Every store and load of the body goes through the whole block of its buffer (zero offsets, full extents). So the
    contents a case leaves are the payload of its last store, a load of a buffer holding `X` reads `X`, and a load of
    the scratch after a whole store in the same case reads that store's payload. -/

/-- The all-zero offset vectors of ranks two, three and four, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- First point of a run: the scratch is reset to the zero block and the point's contribution added to it. -/
theorem sout_A (c : Dev nD) (i : grid0.Coords) (arg2 : Memref sig .tc .vmem S16x64x16x256 .f32) (harg2 : arg2.IsWhole) (arg3 : Memref sig .tc .vmem S16x64x16x1 .f32) (harg3 : arg3.IsWhole) (arg4 : Memref sig .tc .vmem S16x64x256 .f32) (harg4 : arg4.IsWhole) (arg5 : Memref sig .tc .vmem S16x64x1 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : cond0_0 i) (hc1 : ¬cond0_1 i)
    (x0 : Vec F S16x64x16x256 .f32) (x1 : Vec F S16x64x16x1 .f32) (x2 : Vec F S16x64x256 .f32) (x3 : Vec F S16x64x1 .f32) (x4 : Vec F S20x256 .f32) (x5 : Vec F S1x20 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S16x256) hz2, View.readCov_unit_zero (S := S16x256) _ hz2]
  simp only [View.readAt_eq_ld, harg2.read_unread, harg3.read_unread, harg4.read_unread, harg5.read_unread,
    View.ld_unit_zero (S := S16x64x16x256) hz4, View.ld_unit_zero (S := S16x64x16x1) hz4,
    View.ld_unit_zero (S := S16x64x256) hz3, View.ld_unit_zero (S := S16x64x1) hz3]

/-- A middle point: the point's contribution added to what the scratch held. -/
theorem sout_B (c : Dev nD) (i : grid0.Coords) (arg2 : Memref sig .tc .vmem S16x64x16x256 .f32) (harg2 : arg2.IsWhole) (arg3 : Memref sig .tc .vmem S16x64x16x1 .f32) (harg3 : arg3.IsWhole) (arg4 : Memref sig .tc .vmem S16x64x256 .f32) (harg4 : arg4.IsWhole) (arg5 : Memref sig .tc .vmem S16x64x1 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : ¬cond0_1 i)
    (x0 : Vec F S16x64x16x256 .f32) (x1 : Vec F S16x64x16x1 .f32) (x2 : Vec F S16x64x256 .f32) (x3 : Vec F S16x64x1 .f32) (x4 : Vec F S20x256 .f32) (x5 : Vec F S1x20 .f32) (xs0 : Vec F S16x256 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S16x256) hz2]
  simp only [View.readAt_eq_ld, harg2.read_unread, harg3.read_unread, harg4.read_unread, harg5.read_unread,
    View.ld_unit_zero (S := S16x64x16x256) hz4, View.ld_unit_zero (S := S16x64x16x1) hz4,
    View.ld_unit_zero (S := S16x64x256) hz3, View.ld_unit_zero (S := S16x64x1) hz3, harg9.read_unread, View.ld_unit_zero (S := S16x256) hz2]

/-- Last point of a run, the scratch: the same. -/
theorem sout_C (c : Dev nD) (i : grid0.Coords) (arg2 : Memref sig .tc .vmem S16x64x16x256 .f32) (harg2 : arg2.IsWhole) (arg3 : Memref sig .tc .vmem S16x64x16x1 .f32) (harg3 : arg3.IsWhole) (arg4 : Memref sig .tc .vmem S16x64x256 .f32) (harg4 : arg4.IsWhole) (arg5 : Memref sig .tc .vmem S16x64x1 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : cond0_1 i)
    (x0 : Vec F S16x64x16x256 .f32) (x1 : Vec F S16x64x16x1 .f32) (x2 : Vec F S16x64x256 .f32) (x3 : Vec F S16x64x1 .f32) (x4 : Vec F S20x256 .f32) (x5 : Vec F S1x20 .f32) (xs0 : Vec F S16x256 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S16x256) hz2]
  simp only [View.readAt_eq_ld, harg2.read_unread, harg3.read_unread, harg4.read_unread, harg5.read_unread,
    View.ld_unit_zero (S := S16x64x16x256) hz4, View.ld_unit_zero (S := S16x64x16x1) hz4,
    View.ld_unit_zero (S := S16x64x256) hz3, View.ld_unit_zero (S := S16x64x1) hz3, harg9.read_unread, View.ld_unit_zero (S := S16x256) hz2]

/-- Last point of a run, the output block: the classifier payload of the scratch as this point leaves it. -/
theorem out_C (c : Dev nD) (i : grid0.Coords) (arg2 : Memref sig .tc .vmem S16x64x16x256 .f32) (harg2 : arg2.IsWhole) (arg3 : Memref sig .tc .vmem S16x64x16x1 .f32) (harg3 : arg3.IsWhole) (arg4 : Memref sig .tc .vmem S16x64x256 .f32) (harg4 : arg4.IsWhole) (arg5 : Memref sig .tc .vmem S16x64x1 .f32) (harg5 : arg5.IsWhole) (arg6 : Memref sig .tc .vmem S20x256 .f32) (harg6 : arg6.IsWhole) (arg7 : Memref sig .tc .vmem S1x20 .f32) (harg7 : arg7.IsWhole) (arg8 : Memref sig .tc .vmem S16x20 .f32) (harg8 : arg8.IsWhole) (arg9 : Memref sig .tc .vmem S16x256 .f32) (harg9 : arg9.IsWhole) (hc0 : ¬cond0_0 i) (hc1 : cond0_1 i)
    (x0 : Vec F S16x64x16x256 .f32) (x1 : Vec F S16x64x16x1 .f32) (x2 : Vec F S16x64x256 .f32) (x3 : Vec F S16x64x1 .f32) (x4 : Vec F S20x256 .f32) (x5 : Vec F S1x20 .f32) (xs0 : Vec F S16x256 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 x1 x2 x3 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S16x20) hz2]
  simp only [View.readAt_eq_ld, harg2.read_unread, harg3.read_unread, harg4.read_unread, harg5.read_unread,
    View.ld_unit_zero (S := S16x64x16x256) hz4, View.ld_unit_zero (S := S16x64x16x1) hz4,
    View.ld_unit_zero (S := S16x64x256) hz3, View.ld_unit_zero (S := S16x64x1) hz3, harg9.read_unread, harg6.read_unread, harg7.read_unread,
    View.ld_unit_zero (S := S16x256) hz2, View.ld_unit_zero (S := S20x256) hz2, View.ld_unit_zero (S := S1x20) hz2,
    View.readCov_unit_zero (S := S16x256) _ hz2]

end Cert.KernelIdeal.Pieces

end
-- ==== Proof.KernelPay.lean ====
/-
  The kernel body's three payloads read at an index, over the extended reals: the reset stores zeros; the accumulate
  payload adds to the accumulator, at (b, d), the sum over the block's sixty-four sequence positions of the node
  mixtures; the classifier payload is the log-softmax of the ramp of the linear layer of the accumulator's rows.
-/
import proofs.«130229_j41832981463504_1_alg».proof.Proof.Gen.KernelIdeal.Skeleton
import proofs.«130229_j41832981463504_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.Gnn

/-! ## Each operation that moves or folds coordinates, read at a point -/

section Layout
variable {α : Type}

/-- An array with one entry on its last (fourth) axis, repeated along that axis, reads the one entry. -/
private theorem spread4_apply (x : S16x64x16x1.Idx → α) (a : Fin 16) (s : Fin 64) (n : Fin 16) (d : Fin 256) :
    broadcastTo S16x64x16x256 x broadcasts_S16x64x16x1_S16x64x16x256 (ix4 a s n d) = x (ix4 a s n 0) :=
  broadcastTo_apply x _ (ix4 a s n d) (ix4 a s n 0) fun ax => match ax with
    | ⟨0, _⟩ => rfl
    | ⟨1, _⟩ => rfl
    | ⟨2, _⟩ => rfl
    | ⟨3, _⟩ => rfl

/-- An array with one entry on its last (third) axis, repeated along that axis, reads the one entry. -/
private theorem spread3_apply (x : S16x64x1.Idx → α) (a : Fin 16) (s : Fin 64) (d : Fin 256) :
    broadcastTo S16x64x256 x broadcasts_S16x64x1_S16x64x256 (ix3 a s d) = x (ix3 a s 0) :=
  broadcastTo_apply x _ (ix3 a s d) (ix3 a s 0) fun ax => match ax with
    | ⟨0, _⟩ => rfl
    | ⟨1, _⟩ => rfl
    | ⟨2, _⟩ => rfl

/-- A column repeated along the rows' entries reads the row's one entry. -/
private theorem spreadCol_apply (x : S16x1.Idx → α) (b : Fin 16) (c : Fin 20) :
    broadcastTo S16x20 x broadcasts_S16x1_S16x20 (ix2 b c) = x (ix2 b 0) :=
  broadcastTo_apply x _ (ix2 b c) (ix2 b 0) fun ax => match ax with
    | ⟨0, _⟩ => rfl
    | ⟨1, _⟩ => rfl

/-- A vector viewed as a column reads its entry at the row. -/
private theorem column_apply (v : S16.Idx → α) (b : Fin 16) (u : Fin 1) :
    shapeCast S16x1 v shapeCasts_S16_S16x1 (ix2 b u) = v (ix1 b) :=
  shapeCast_apply v _ _ _ (by
    have hu : u.val = 0 := by omega
    rw [Shape.rowMajor_val_two, Shape.rowMajor_val_one]
    show b.val = b.val * 1 + u.val
    rw [hu, Nat.mul_one, Nat.add_zero])

end Layout

/-- The maximum over the neighbour axis, from the pattern of minus infinity: the maximum from bottom. -/
private theorem maxNbr_apply (v : FVec Ideal S16x64x16x256 .f32) (a : Fin 16) (s : Fin 64) (d : Fin 256) :
    multiReduction (F := Ideal) .maximumf [2] S16x64x256 v 0xFF800000#32 reduces_S16x64x16x256_S16x64x256 (.inl rfl) rfl (ix3 a s d)
      = (Finset.univ : Finset (Fin 16)).fold max ⊥ fun n => v (ix4 a s n d) := by
  refine (Ideal.multiReduction_maximumf_single v _ reduces_S16x64x16x256_S16x64x256 (.inl rfl) rfl (ix3 a s d)).trans ?_
  refine (congrArg (fun z => (Finset.univ : Finset (Fin 16)).fold max z _) ofBits_neg_inf_f32).trans ?_
  refine Finset.fold_congr fun n _ => congrArg v (funext fun ax => Fin.ext ?_)
  match ax with
  | ⟨0, _⟩ => rfl
  | ⟨1, _⟩ => rfl
  | ⟨2, _⟩ => rfl
  | ⟨3, _⟩ => rfl

/-- The sum over the sequence axis of the block. -/
private theorem sumSeq_apply (v : FVec Ideal S16x64x256 .f32) (b : Fin 16) (d : Fin 256) :
    multiReduction (F := Ideal) .add [1] S16x256 v 0x00000000#32 reduces_S16x64x256_S16x256 (.inl rfl) rfl (ix2 b d)
      = ∑ s : Fin 64, v (ix3 b s d) := by
  refine (Ideal.multiReduction_add_single v _ reduces_S16x64x256_S16x256 (.inl rfl) rfl (ix2 b d)).trans ?_
  refine Finset.sum_congr rfl fun s _ => congrArg v (funext fun ax => Fin.ext ?_)
  match ax with
  | ⟨0, _⟩ => rfl
  | ⟨1, _⟩ => rfl
  | ⟨2, _⟩ => rfl

/-- A row's maximum, from the pattern of minus infinity: the maximum from bottom. -/
private theorem maxRow_apply (v : FVec Ideal S16x20 .f32) (b : Fin 16) :
    multiReduction (F := Ideal) .maximumf [1] S16 v 0xFF800000#32 reduces_S16x20_S16 (.inl rfl) rfl (ix1 b)
      = (Finset.univ : Finset (Fin 20)).fold max ⊥ fun c => v (ix2 b c) := by
  refine (Ideal.multiReduction_maximumf_single v _ reduces_S16x20_S16 (.inl rfl) rfl (ix1 b)).trans ?_
  refine (congrArg (fun z => (Finset.univ : Finset (Fin 20)).fold max z _) ofBits_neg_inf_f32).trans ?_
  refine Finset.fold_congr fun c _ => congrArg v (funext fun ax => Fin.ext ?_)
  match ax with
  | ⟨0, _⟩ => rfl
  | ⟨1, _⟩ => rfl

/-- A row's sum. -/
private theorem sumRow_apply (v : FVec Ideal S16x20 .f32) (b : Fin 16) :
    multiReduction (F := Ideal) .add [1] S16 v 0x00000000#32 reduces_S16x20_S16 (.inl rfl) rfl (ix1 b)
      = ∑ c : Fin 20, v (ix2 b c) := by
  refine (Ideal.multiReduction_add_single v _ reduces_S16x20_S16 (.inl rfl) rfl (ix1 b)).trans ?_
  refine Finset.sum_congr rfl fun c _ => congrArg v (funext fun ax => Fin.ext ?_)
  match ax with
  | ⟨0, _⟩ => rfl
  | ⟨1, _⟩ => rfl

/-! ## The linear layer's product -/

private theorem lhsAx0 (i : S16x20.Idx) (q : dot_S16x256_S256x20_S16x20_1_0_0_1_n_n.contr.Idx) :
    (dot_S16x256_S256x20_S16x20_1_0_0_1_n_n.lhsIdx i q 0).val = (i 0).val := by
  unfold DotDims.lhsIdx
  rw [dif_neg (show ¬(0 : Fin S16x256.rank) ∈ dot_S16x256_S256x20_S16x20_1_0_0_1_n_n.lhsBatch by decide), dif_pos (show (0 : Fin S16x256.rank) ∈ dot_S16x256_S256x20_S16x20_1_0_0_1_n_n.lhsNonContracting by decide)]
  rfl
private theorem lhsAx1 (i : S16x20.Idx) (q : dot_S16x256_S256x20_S16x20_1_0_0_1_n_n.contr.Idx) :
    (dot_S16x256_S256x20_S16x20_1_0_0_1_n_n.lhsIdx i q 1).val = (q ⟨0, by decide⟩).val :=
  dot_S16x256_S256x20_S16x20_1_0_0_1_n_n.lhsIdx_val_of_single rfl i q
private theorem rhsAx0 (i : S16x20.Idx) (q : dot_S16x256_S256x20_S16x20_1_0_0_1_n_n.contr.Idx) :
    (dot_S16x256_S256x20_S16x20_1_0_0_1_n_n.rhsIdx i q 0).val = (q ⟨0, by decide⟩).val :=
  dot_S16x256_S256x20_S16x20_1_0_0_1_n_n.rhsIdx_val_of_single rfl i q
private theorem rhsAx1 (i : S16x20.Idx) (q : dot_S16x256_S256x20_S16x20_1_0_0_1_n_n.contr.Idx) :
    (dot_S16x256_S256x20_S16x20_1_0_0_1_n_n.rhsIdx i q 1).val = (i 1).val := by
  unfold DotDims.rhsIdx
  rw [dif_neg (show ¬(1 : Fin S256x20.rank) ∈ dot_S16x256_S256x20_S16x20_1_0_0_1_n_n.rhsBatch by decide), dif_pos (show (1 : Fin S256x20.rank) ∈ dot_S16x256_S256x20_S16x20_1_0_0_1_n_n.rhsNonContracting by decide)]
  rfl

/-- The product into the zero block, at (b, c): the sum over the feature axis of row b of the left factor against
    column c of the right. -/
private theorem dense_apply (lhs : FVec Ideal S16x256 .f32) (rhs : FVec Ideal S256x20 .f32) (b : Fin 16) (c : Fin 20) :
    matmul dot_S16x256_S256x20_S16x20_1_0_0_1_n_n none lhs rhs (constant (F := Ideal) S16x20 .f32 0x00000000#32) (ix2 b c)
      = ∑ k : Fin 256, lhs (ix2 b k) * rhs (ix2 k c) := by
  refine (Ideal.matmul_constant_zero_apply dot_S16x256_S256x20_S16x20_1_0_0_1_n_n none lhs rhs (ix2 b c)).trans ?_
  rw [← Equiv.sum_comp (contrEquiv1 dot_S16x256_S256x20_S16x20_1_0_0_1_n_n 256 rfl rfl).symm]
  refine Finset.sum_congr rfl fun k _ => ?_
  have hk := contrEquiv1_symm_val dot_S16x256_S256x20_S16x20_1_0_0_1_n_n 256 rfl rfl k
  have el : dot_S16x256_S256x20_S16x20_1_0_0_1_n_n.lhsIdx (ix2 b c) ((contrEquiv1 dot_S16x256_S256x20_S16x20_1_0_0_1_n_n 256 rfl rfl).symm k) = ix2 b k :=
    funext fun a => Fin.ext (by
      match a with
      | ⟨0, _⟩ => exact lhsAx0 _ _
      | ⟨1, _⟩ => exact (lhsAx1 _ _).trans hk)
  have er : dot_S16x256_S256x20_S16x20_1_0_0_1_n_n.rhsIdx (ix2 b c) ((contrEquiv1 dot_S16x256_S256x20_S16x20_1_0_0_1_n_n 256 rfl rfl).symm k) = ix2 k c :=
    funext fun a => Fin.ext (by
      match a with
      | ⟨0, _⟩ => exact (rhsAx0 _ _).trans hk
      | ⟨1, _⟩ => exact rhsAx1 _ _)
  rw [el, er]

/-- A matrix turned over reads the entry with the coordinates exchanged. -/
private theorem turned_apply {α : Type} (w : S20x256.Idx → α) (k : Fin 256) (c : Fin 20) :
    transpose S256x20 [1, 0] w transposes_S20x256_p1_0_S256x20 (ix2 k c) = w (ix2 c k) :=
  transpose_ix2_apply w _ k c

/-- The ramp of the linear layer as the payload spells it: the product with the turned weights into the zero block,
    plus the bias row repeated down the rows, against a block of zeros. -/
private theorem scores_apply (accv : FVec Ideal S16x256 .f32) (w : FVec Ideal S20x256 .f32) (bb : FVec Ideal S1x20 .f32)
    (b : Fin 16) (c : Fin 20) :
    maximumf
        (addf
          (matmul dot_S16x256_S256x20_S16x20_1_0_0_1_n_n none accv
            (transpose S256x20 [1, 0] w transposes_S20x256_p1_0_S256x20) (constant (F := Ideal) S16x20 .f32 0x00000000#32))
          (broadcastTo S16x20 bb broadcasts_S1x20_S16x20))
        (broadcast S16x20 (Ideal.ofBits .f32 0x00000000#32)) (ix2 b c)
      = act (logit (c2 accv) (c2 w) (c2row bb)) b c := by
  refine congrArg₂ max (congrArg₂ (· + ·) ((dense_apply accv _ b c).trans ?_) (broadcastTo_1b_ab_apply bb _ b c))
    Ideal.ofBits_zero_f32
  exact Finset.sum_congr rfl fun k _ => congrArg (accv (ix2 b k) * ·) (turned_apply w k c)

/-- The tail of the classifier payload over any block of scores: the score minus the sum of the row's maximum and the
    logarithm of the row's sum of exponentials of the scores less that maximum, the maximum and the sum passing
    through a column and back along the row. -/
private theorem logSoftmax_apply (Y : FVec Ideal S16x20 .f32) (b : Fin 16) (c : Fin 20) :
    subf Y
        (broadcastTo S16x20
          (addf
            (shapeCast S16x1
              (multiReduction (F := Ideal) .maximumf [1] S16 Y 0xFF800000#32 reduces_S16x20_S16 (.inl rfl) rfl)
              shapeCasts_S16_S16x1)
            (log
              (shapeCast S16x1
                (multiReduction (F := Ideal) .add [1] S16
                  (exp
                    (subf Y
                      (broadcastTo S16x20
                        (shapeCast S16x1
                          (multiReduction (F := Ideal) .maximumf [1] S16 Y 0xFF800000#32 reduces_S16x20_S16 (.inl rfl) rfl)
                          shapeCasts_S16_S16x1)
                        broadcasts_S16x1_S16x20)))
                  0x00000000#32 reduces_S16x20_S16 (.inl rfl) rfl)
                shapeCasts_S16_S16x1)))
          broadcasts_S16x1_S16x20) (ix2 b c)
      = lsmK (fun r c => Y (ix2 r c)) b c := by
  -- the row's maximum, read off the column at row b
  have hM : shapeCast S16x1
        (multiReduction (F := Ideal) .maximumf [1] S16 Y 0xFF800000#32 reduces_S16x20_S16 (.inl rfl) rfl)
        shapeCasts_S16_S16x1 (ix2 b 0) = rowMax (fun r c => Y (ix2 r c)) b :=
    (column_apply _ b 0).trans (maxRow_apply Y b)
  refine congrArg (Y (ix2 b c) - ·) ((spreadCol_apply _ b c).trans ?_)
  refine congrArg₂ (· + ·) hM (congrArg Ideal.log ((column_apply _ b 0).trans ((sumRow_apply _ b).trans ?_)))
  exact Finset.sum_congr rfl fun c' _ =>
    congrArg Ideal.exp (congrArg (Y (ix2 b c') - ·) ((spreadCol_apply _ b c').trans hM))

/-- The reset block is zero everywhere. -/
theorem pay1_apply (j : S16x256.Idx) : (k0_pay1 (F := Ideal)) j = 0 :=
  (congrFun (shapeCast_self (broadcast S16x256 (Ideal.ofBits .f32 0x00000000#32)) shapeCasts_S16x256_S16x256) j).trans
    Ideal.ofBits_zero_f32

/-- The accumulate payload at (b, d): the accumulator's entry plus the block's sum of node mixtures. -/
theorem pay2_apply (x0 : Vec Ideal S16x64x16x256 .f32) (x1 : Vec Ideal S16x64x16x1 .f32) (x2 : Vec Ideal S16x64x256 .f32)
    (x3 : Vec Ideal S16x64x1 .f32) (acc : Vec Ideal S16x256 .f32) (b : Fin 16) (d : Fin 256) :
    k0_pay2 (F := Ideal) x0 x1 x2 x3 acc (ix2 b d)
      = acc (ix2 b d) + ∑ s : Fin 64, mix (c4 x0) (c4u x1) (c3 x2) (c3u x3) b s d := by
  unfold k0_pay2
  simp only [shapeCast_self]
  -- the accumulator plus the sum over the sequence axis; what is left is one node's mixture
  refine congrArg (acc (ix2 b d) + ·) ((sumSeq_apply _ b d).trans (Finset.sum_congr rfl fun s _ => ?_))
  -- (1 - weight) * (largest weighted neighbour) + weight * (own embedding)
  refine congrArg₂ (· + ·)
    (congrArg₂ (· * ·) ((spread3_apply _ b s d).trans (congrArg (· - x3 (ix3 b s 0)) ofBits_one_f32))
      ((maxNbr_apply _ b s d).trans ?_))
    (congrArg (· * x2 (ix3 b s d)) (spread3_apply x3 b s d))
  exact Finset.fold_congr fun n _ => congrArg (x0 (ix4 b s n d) * ·) (spread4_apply x1 b s n d)

/-- The classifier payload at (b, c): the log-softmax, first spelling, of the ramp of the linear layer. -/
theorem pay3_apply (accv : Vec Ideal S16x256 .f32) (w : Vec Ideal S20x256 .f32) (bb : Vec Ideal S1x20 .f32)
    (b : Fin 16) (c : Fin 20) :
    k0_pay3 (F := Ideal) accv w bb (ix2 b c) = lsmK (act (logit (c2 accv) (c2 w) (c2row bb))) b c := by
  unfold k0_pay3
  simp only [shapeCast_self]
  refine (logSoftmax_apply _ b c).trans ?_
  exact congrArg (fun X => lsmK X b c) (funext fun r => funext fun c' => scores_apply accv w bb r c')

end Cert.KernelIdeal.Pay

end
-- ==== Proof.KernelPooled.lean ====
/-
  A run's eight addends make the pooled feature of a batch row: the sum over eight sequence blocks of the sums over
  their sixty-four positions is the sum over all 512 positions, each block entry being the array's entry at the
  block's offset.
-/
import proofs.«130229_j41832981463504_1_alg».proof.Proof.Gen.KernelIdeal.Value
import proofs.«130229_j41832981463504_1_alg».proof.Proof.KernelBlocks
import proofs.«130229_j41832981463504_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.GnnValue

open Cert.KernelIdeal Cert.KernelIdeal.Gen Cert.KernelIdeal.Value Cert.Gnn

variable (m : (ℓ : Loc nD τ sig) → Buf (Elt Ideal) ℓ) (ρ : Dev nD → PrngReg)

/-- One node mixture read in a block is the mixture read in the whole arrays at the block's row and position:
    each of the four block entries it is made of is the array's entry there. -/
private theorem mix_blk (c : Dev nD) (n : Fin cfg0.N) (b : Fin 16) (j : Fin 64) (d : Fin 256) :
    mix (c4 (xb0 m c n)) (c4u (xb1 m c n)) (c3 (xb2 m c n)) (c3u (xb3 m c n)) b j d
      = mix (c4 (Ra m c)) (c4u (Ean m c)) (c3 (Rn m c)) (c3u (Nn m c)) (rowOf n b) (posOf n j) d := by
  unfold mix nbrMax
  simp only [xb0_apply, xb1_apply, xb2_apply, xb3_apply]

/-- At the last point of a run, zero plus the run's eight addends at (b, d) is the pooled feature d of batch row
    16 q + b. -/
theorem pooled_row (c : Dev nD) (t : Fin cfg0.N) (h7 : t.val % 8 = 7) (b : Fin 16) (d : Fin 256) :
    (0 : EReal) + ∑ s ∈ Finset.range 8, addend m c (8 * (t.val / 8) + s) (ix2 b d)
      = pooled (c4 (Ra m c)) (c4u (Ean m c)) (c3 (Rn m c)) (c3u (Nn m c)) (rowOf t b) d := by
  have hN : cfg0.N = 32 := N_0
  have ht : t.val < 32 := lt_of_lt_of_eq t.isLt hN
  rw [zero_add, Finset.sum_range]
  unfold pooled
  rw [sum_512_eq]
  refine Finset.sum_congr rfl fun k _ => ?_
  have hk8 : k.val < 8 := k.isLt
  have hk : 8 * (t.val / 8) + k.val < cfg0.N := by omega
  unfold addend
  rw [dif_pos hk]
  refine Finset.sum_congr rfl fun j _ => ?_
  refine (mix_blk m c ⟨8 * (t.val / 8) + k.val, hk⟩ b j d).trans ?_
  have r : rowOf ⟨8 * (t.val / 8) + k.val, hk⟩ b = rowOf t b :=
    Fin.ext (by show 16 * ((8 * (t.val / 8) + k.val) / 8) + b.val = 16 * (t.val / 8) + b.val; omega)
  have p : posOf ⟨8 * (t.val / 8) + k.val, hk⟩ j = ⟨64 * k.val + j.val, by have := j.isLt; omega⟩ :=
    Fin.ext (by show 64 * ((8 * (t.val / 8) + k.val) % 8) + j.val = 64 * k.val + j.val; omega)
  rw [r, p]

end Cert.KernelIdeal.GnnValue

end
-- ==== Proof.KernelCover.lean ====
/-
  The output's write-backs tile its array: row r of the 64 lies in the block written back at the last point of
  run r / 16, and every column lies in every block.
-/
import proofs.«130229_j41832981463504_1_alg».proof.Proof.Gen.KernelIdeal.Value
import proofs.«130229_j41832981463504_1_alg».proof.Proof.KernelBlocks
import proofs.«130229_j41832981463504_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.GnnValue

open Cert.KernelIdeal Cert.KernelIdeal.Gen Cert.KernelIdeal.Value Cert.Gnn

variable (m : (ℓ : Loc nD τ sig) → Buf (Elt Ideal) ℓ) (ρ : Dev nD → PrngReg)

/-- An index of the result array lies in point `t`'s block iff, on each axis, its coordinate lies in the block's
    range: sixteen rows from the block's row offset, all twenty columns. -/
private theorem mem_blk6 (t : Fin cfg0.N) (i : S64x20.Idx) :
    i ∈ ((cfg0.win 6).blk t).view.set ↔ ∀ a : Fin 2, win0_6.index t a * S16x20.size a ≤ (i a).val ∧ (i a).val < win0_6.index t a * S16x20.size a + S16x20.size a := by
  show i ∈ ((View.whole main_v29).slice (win0_6.rect t)).set ↔ _
  rw [View.set_slice_whole, Rect.mem_set_unit]
  exact Iff.rfl

/-- Every index of the result array is in the block some writing-back point writes. -/
theorem cover6 (i : S64x20.Idx) :
    ∃ t : Fin cfg0.N, (cfg0.win 6).flush t = true ∧ i ∈ ((cfg0.win 6).blk t).view.set := by
  have hN : cfg0.N = 32 := N_0
  have hi0 : (i 0).val < 64 := (i 0).isLt
  have hi1 : (i 1).val < 20 := (i 1).isLt
  -- the last point of the run that holds row `i 0`: run `i 0 / 16`, eighth point
  refine ⟨⟨8 * ((i 0).val / 16) + 7, by omega⟩, (flush0_6 _).mpr (by show (8 * ((i 0).val / 16) + 7) % 8 = 7; omega), ?_⟩
  obtain ⟨-, -, -, -, -, -, -, -, -, -, -, -, -, -, -, -, -, -, e0, e1⟩ :=
    idx_facts (⟨8 * ((i 0).val / 16) + 7, by omega⟩ : Fin cfg0.N)
  have q0 : (8 * ((i 0).val / 16) + 7) / 8 = (i 0).val / 16 := by omega
  rw [mem_blk6]
  intro a
  match a with
  | ⟨0, _⟩ =>
    show win0_6.index _ (0 : Fin 2) * 16 ≤ (i 0).val ∧ (i 0).val < win0_6.index _ (0 : Fin 2) * 16 + 16
    rw [e0]; dsimp only; omega
  | ⟨1, _⟩ =>
    show win0_6.index _ (1 : Fin 2) * 20 ≤ (i 1).val ∧ (i 1).val < win0_6.index _ (1 : Fin 2) * 20 + 20
    rw [e1]; omega

end Cert.KernelIdeal.GnnValue

end
-- ==== Proof.KernelValue.lean ====
/-
  What the kernel's result array holds after the run, over the extended reals.

  A scratch of pooled features is reset at the first point of each run of eight grid points and gains every point's
  addend, so after the run's last point it holds zero plus the eight addends, which is the pooled feature of the
  run's sixteen batch rows. Only that last point writes the output block back: the log-softmax of the ramp of the
  linear layer of those sixteen pooled rows, which is rows 16 q .. 16 q + 15 of the whole computation because the
  last three layers act row by row. The four write-backs tile the 64 rows, so the result array is the whole
  computation of the staged arrays.
-/
import proofs.«130229_j41832981463504_1_alg».proof.Proof.Gen.KernelIdeal.Value
import proofs.«130229_j41832981463504_1_alg».proof.Proof.KernelBlocks
import proofs.«130229_j41832981463504_1_alg».proof.Proof.Spec
import proofs.«130229_j41832981463504_1_alg».proof.Proof.KernelPieces
import proofs.«130229_j41832981463504_1_alg».proof.Proof.KernelPay
import proofs.«130229_j41832981463504_1_alg».proof.Proof.KernelPooled
import proofs.«130229_j41832981463504_1_alg».proof.Proof.KernelCover
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.GnnValue

open Cert.KernelIdeal Cert.KernelIdeal.Gen Cert.KernelIdeal.Value Cert.Gnn

variable (m : (ℓ : Loc nD τ sig) → Buf (Elt Ideal) ℓ) (ρ : Dev nD → PrngReg)

/-! ## The found pieces at a grid point -/

theorem soutA_at (c : Dev nD) (T : Fin cfg0.N) (hc0 : cond0_0 (grid0.coords T)) (hc1 : ¬cond0_1 (grid0.coords T)) :
    sout0_A_0 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (iblk m c 0 T) (iblk m c 1 T) (iblk m c 2 T) (iblk m c 3 T) (iblk m c 4 T) (iblk m c 5 T)
      = k0_pay2 (F := Ideal) (xb0 m c T) (xb1 m c T) (xb2 m c T) (xb3 m c T) (k0_pay1 (F := Ideal)) :=
  Pieces.sout_A (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (xb0 m c T) (xb1 m c T) (xb2 m c T) (xb3 m c T) (xb4 m c T) (xb5 m c T)

theorem soutB_at (c : Dev nD) (T : Fin cfg0.N) (hc0 : ¬cond0_0 (grid0.coords T)) (hc1 : ¬cond0_1 (grid0.coords T))
    (xs0 : S16x256.Idx → EReal) :
    sout0_B_0 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (iblk m c 0 T) (iblk m c 1 T) (iblk m c 2 T) (iblk m c 3 T) (iblk m c 4 T) (iblk m c 5 T) xs0
      = k0_pay2 (F := Ideal) (xb0 m c T) (xb1 m c T) (xb2 m c T) (xb3 m c T) xs0 :=
  Pieces.sout_B (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (xb0 m c T) (xb1 m c T) (xb2 m c T) (xb3 m c T) (xb4 m c T) (xb5 m c T) xs0

theorem soutC_at (c : Dev nD) (T : Fin cfg0.N) (hc0 : ¬cond0_0 (grid0.coords T)) (hc1 : cond0_1 (grid0.coords T))
    (xs0 : S16x256.Idx → EReal) :
    sout0_C_0 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (iblk m c 0 T) (iblk m c 1 T) (iblk m c 2 T) (iblk m c 3 T) (iblk m c 4 T) (iblk m c 5 T) xs0
      = k0_pay2 (F := Ideal) (xb0 m c T) (xb1 m c T) (xb2 m c T) (xb3 m c T) xs0 :=
  Pieces.sout_C (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (xb0 m c T) (xb1 m c T) (xb2 m c T) (xb3 m c T) (xb4 m c T) (xb5 m c T) xs0

theorem outC_at (c : Dev nD) (T : Fin cfg0.N) (hc0 : ¬cond0_0 (grid0.coords T)) (hc1 : cond0_1 (grid0.coords T))
    (xs0 : S16x256.Idx → EReal) :
    out0_C_6 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (iblk m c 0 T) (iblk m c 1 T) (iblk m c 2 T) (iblk m c 3 T) (iblk m c 4 T) (iblk m c 5 T) xs0
      = k0_pay3 (F := Ideal) (k0_pay2 (F := Ideal) (xb0 m c T) (xb1 m c T) (xb2 m c T) (xb3 m c T) xs0) (xb4 m c T) (xb5 m c T) :=
  Pieces.out_C (F := Ideal) c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) hc0 hc1 (xb0 m c T) (xb1 m c T) (xb2 m c T) (xb3 m c T) (xb4 m c T) (xb5 m c T) xs0

/-- The accumulate payload of a point's blocks, at an index: the accumulator's entry plus the point's addend. -/
theorem pay2_at (c : Dev nD) (T : Fin cfg0.N) (acc : S16x256.Idx → EReal) (i : S16x256.Idx) :
    k0_pay2 (F := Ideal) (xb0 m c T) (xb1 m c T) (xb2 m c T) (xb3 m c T) acc i = acc i + addend m c T.val i := by
  obtain ⟨p, q, rfl⟩ : ∃ (p : Fin 16) (q : Fin 256), i = ix2 p q := ⟨i 0, i 1, eq_ix2 i⟩
  refine (Pay.pay2_apply (xb0 m c T) (xb1 m c T) (xb2 m c T) (xb3 m c T) acc p q).trans ?_
  unfold addend
  rw [dif_pos T.isLt]

/-! ## The scratch after a point -/

/-- After point `t` the scratch holds zero plus the addends of its run's points so far. -/
theorem scratch_eq (c : Dev nD) (t : Fin cfg0.N) (i : S16x256.Idx) :
    (outsAt0 m c t.val t.isLt).2 i
      = 0 + ∑ s ∈ Finset.range (t.val % 8 + 1), addend m c (8 * (t.val / 8) + s) i := by
  have hN : cfg0.N = 32 := N_0
  have ht := t.isLt
  rw [soutsAt0_0_eq m c t]
  refine Pipeline.accAt_add_apply _ _ (fun _ => (0 : EReal)) (addend m c) (8 * (t.val / 8)) 7 ?_ ?_
    (t.val % 8) (by omega) _ i
  · intro h i
    have h0 : (8 * (t.val / 8)) % 8 = 0 := by omega
    have h1 : ¬(8 * (t.val / 8)) % 8 = 7 := by omega
    unfold scAt0_0
    rw [dif_pos h0, dif_neg h1]
    refine (congrFun (soutA_at m c ⟨8 * (t.val / 8), h⟩ _ _) i).trans ?_
    refine (pay2_at m c ⟨8 * (t.val / 8), h⟩ _ i).trans ?_
    obtain ⟨p, q, rfl⟩ : ∃ (p : Fin 16) (q : Fin 256), i = ix2 p q := ⟨i 0, i 1, eq_ix2 i⟩
    rw [Pay.pay1_apply]
  · intro n h acc i hb he
    have h0 : ¬n % 8 = 0 := by omega
    unfold scAt0_0
    rw [dif_neg h0]
    by_cases h1 : n % 8 = 7
    · rw [dif_pos h1]
      exact (congrFun (soutC_at m c ⟨n, h⟩ _ _ acc) i).trans (pay2_at m c ⟨n, h⟩ acc i)
    · rw [dif_neg h1]
      exact (congrFun (soutB_at m c ⟨n, h⟩ _ _ acc) i).trans (pay2_at m c ⟨n, h⟩ acc i)

/-! ## The output block at a run's last point -/

/-- At the last point of a run the output block is the classifier payload of the scratch as that point leaves it. -/
theorem out_eq (c : Dev nD) (t : Fin cfg0.N) (h0 : ¬t.val % 8 = 0) (h1 : t.val % 8 = 7) :
    (outsAt0 m c t.val t.isLt).1
      = k0_pay3 (F := Ideal) ((outsAt0 m c t.val t.isLt).2) (xb4 m c t) (xb5 m c t) := by
  rw [outsAt0_C m c t h0 h1]
  dsimp only
  rw [outC_at m c t, soutC_at m c t]

/-- The whole computation of the staged arrays, index by index. -/
abbrev G (c : Dev nD) : S64x20.Idx → EReal := fun i =>
  kernelForm (c4 (Ra m c)) (c4u (Ean m c)) (c3 (Rn m c)) (c3u (Nn m c)) (c2 (Wt m c)) (c2row (Bi m c)) (i 0) (i 1)

/-- What a writing-back point writes is its block of the whole computation. -/
theorem flushed_eq (c : Dev nD) (t : Fin cfg0.N) (hf : (cfg0.win 6).flush t = true) :
    (dats m 0 c).flushed 6 t = ((cfg0.win 6).blk t).view.read (Elt Ideal) (G m c) := by
  have h1 : t.val % 8 = 7 := (flush0_6 t).mp hf
  have h0 : ¬t.val % 8 = 0 := by omega
  obtain ⟨-, -, -, -, -, -, -, -, -, -, -, -, -, -, -, -, -, -, e0, e1⟩ := idx_facts t
  rw [flushed6, out_eq m c t h0 h1]
  show (fun j : S16x20.Idx => k0_pay3 (F := Ideal) ((outsAt0 m c t.val t.isLt).2) (xb4 m c t) (xb5 m c t) j)
    = fun j : S16x20.Idx => G m c (((cfg0.win 6).blk t).view.emb j)
  funext j
  obtain ⟨b, k, rfl⟩ : ∃ (b : Fin 16) (k : Fin 20), j = ix2 b k := ⟨j 0, j 1, eq_ix2 j⟩
  have hemb : ((cfg0.win 6).blk t).view.emb (ix2 b k) = (ix2 (rowOf t b) k : S64x20.Idx) :=
    funext fun a => Fin.ext (by
      match a with
      | ⟨0, _⟩ => show win0_6.index t (0 : Fin 2) * 16 + 1 * b.val = 16 * (t.val / 8) + b.val; omega
      | ⟨1, _⟩ => show win0_6.index t (1 : Fin 2) * 20 + 1 * k.val = k.val; omega)
  rw [hemb]
  refine (Pay.pay3_apply _ (xb4 m c t) (xb5 m c t) b k).trans ?_
  have hW : c2 (xb4 m c t) = c2 (Wt m c) := funext fun k => funext fun d => xb4_apply m c t k d
  have hB : c2row (xb5 m c t) = c2row (Bi m c) := funext fun k => xb5_apply m c t k
  rw [hW, hB]
  refine lsmK_act_logit_congr _ _ _ _ (rowOf t b) b (fun d => ?_) k
  show (outsAt0 m c t.val t.isLt).2 (ix2 b d) = _
  rw [scratch_eq, h1]
  exact pooled_row m c t h1 b d

/-! ## The result array and the run -/

/-- After the run the result array is the whole computation of the staged arrays. -/
theorem final (c : Dev nD) : (dats m 0 c).arrAt 6 cfg0.N = G m c :=
  (dats m 0 c).arrAt_eq_of_cover 6 (G m c) (flushed_eq m c) cover6

/-- Every weakly fair execution ends with the result array at the whole computation and the arguments unchanged. -/
theorem run : θ_run defs (onTc (τ := τ) (main (F := Ideal))) ⟨m, fun _ => 0, ρ⟩ fun r => ∀ c : Dev nD,
      r.2.mem ((c : Thread nD τ).loc main_v29) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.GnnValue

end
-- ==== Proof.RefValue.lean ====
/-
  The reference's result as the computation's second spelling: read one operation at a time down to the four
  gathered arrays, it is the log-softmax (score minus maximum, minus shifted log-sum-exp) of the ramp of the linear
  layer of the sequence-pooled node mixtures.
-/
import proofs.«130229_j41832981463504_1_alg».proof.Proof.Gen.ReferenceIdeal.Read
import proofs.«130229_j41832981463504_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Gnn

section Chain

variable (x0 : (⟨S64x512, .i32⟩ : BufTy).Contents (Elt Ideal)) (x1 x2 : (⟨S64x512x16, .i32⟩ : BufTy).Contents (Elt Ideal))
  (x3 : (⟨S5000x256, .f32⟩ : BufTy).Contents (Elt Ideal)) (x4 : (⟨S24990002x1, .f32⟩ : BufTy).Contents (Elt Ideal))
  (x5 : (⟨S5000x1, .f32⟩ : BufTy).Contents (Elt Ideal)) (x6 : (⟨S20x256, .f32⟩ : BufTy).Contents (Elt Ideal))
  (x7 : (⟨S20, .f32⟩ : BufTy).Contents (Elt Ideal))

/-- The largest, from minus infinity, over the sixteen neighbours of embedding times edge weight. -/
private theorem nbr_eq (r : Fin 64) (s : Fin 512) (d : Fin 256) :
    val_main_v16 (F := Ideal) x1 x2 x3 x4 (ix3 r s d)
      = nbrMax (c4 (val_main_v6 (F := Ideal) x1 x3)) (c4u (val_main_v13 (F := Ideal) x2 x4)) r s d := by
  have h : S64x512x16x256.Reduces [2] S64x512x256 := by decide
  have hinit : val_main_cst (F := Ideal) (Shape.Idx.first h_S_) = (⊥ : EReal) := ofBits_neg_inf_f32
  unfold val_main_v16
  rw [Host.reduce_eq_fold_single FloatOps.maximumf _ _ reducesTo_S64x512x16x256_S64x512x256_d2 h h_S_, hinit]
  unfold nbrMax
  refine Finset.fold_congr (fun (n : Fin 16) _ => ?_)
  have e1 : h.lift (ix3 r s d) n = ix4 r s n d := funext fun c => Fin.ext (by fin_cases c <;> rfl)
  have e2 : idx_main_v14 (ix4 r s n d) = ix4 r s n 0 :=
    funext fun a => Fin.ext (by match a with | ⟨0, _⟩ => rfl | ⟨1, _⟩ => rfl | ⟨2, _⟩ => rfl | ⟨3, _⟩ => rfl)
  show val_main_v15 (F := Ideal) x1 x2 x3 x4 (h.lift (ix3 r s d) n) = _
  rw [e1, val_main_v15_apply, val_main_v14_apply, e2]
  rfl

/-- A node's value: one minus its weight times the neighbour maximum, plus its weight times its own embedding. -/
private theorem mix_eq (r : Fin 64) (s : Fin 512) (d : Fin 256) :
    val_main_v37 (F := Ideal) x0 x1 x2 x3 x4 x5 (ix3 r s d)
      = mix (c4 (val_main_v6 (F := Ideal) x1 x3)) (c4u (val_main_v13 (F := Ideal) x2 x4))
          (c3 (val_main_v23 (F := Ideal) x0 x3)) (c3u (val_main_v30 (F := Ideal) x0 x5)) r s d := by
  have e33 : idx_main_v33 (ix3 r s d) = ix3 r s 0 := funext fun a => Fin.ext (by match a with | ⟨0, _⟩ => rfl | ⟨1, _⟩ => rfl | ⟨2, _⟩ => rfl)
  have e35 : idx_main_v35 (ix3 r s d) = ix3 r s 0 := funext fun a => Fin.ext (by match a with | ⟨0, _⟩ => rfl | ⟨1, _⟩ => rfl | ⟨2, _⟩ => rfl)
  have h1 : (FloatOps.ofBits FTy.f32 0x3F800000#32 : Ideal .f32) = 1 := ofBits_one_f32
  rw [val_main_v37_apply, val_main_v34_apply, val_main_v36_apply, val_main_v33_apply, val_main_v35_apply, e33, e35,
    val_main_v32_apply, val_main_v31_apply, val_main_cst_7_apply, nbr_eq, h1]
  rfl

/-- The sum from zero over the sequence axis of the node values. -/
private theorem pooled_eq (r : Fin 64) (d : Fin 256) :
    val_main_v38 (F := Ideal) x0 x1 x2 x3 x4 x5 (ix2 r d)
      = pooled (c4 (val_main_v6 (F := Ideal) x1 x3)) (c4u (val_main_v13 (F := Ideal) x2 x4))
          (c3 (val_main_v23 (F := Ideal) x0 x3)) (c3u (val_main_v30 (F := Ideal) x0 x5)) r d := by
  have h0 : val_main_cst_8 (F := Ideal) (Shape.Idx.first h_S_) = (0 : EReal) := Ideal.ofBits_zero_f32
  rw [val_main_v38_apply, h0, zero_add]
  unfold pooled
  refine Finset.sum_congr rfl fun k _ => ?_
  have e : idx_main_v38 (ix2 r d) k = ix3 r k d := funext fun a => Fin.ext (by match a with | ⟨0, _⟩ => rfl | ⟨1, _⟩ => rfl | ⟨2, _⟩ => rfl)
  rw [e, mix_eq]

/-- The non-negative scores: the ramp of the linear layer of the pooled mixtures, over the four gathered arrays. -/
private abbrev scores : Fin 64 → Fin 20 → EReal :=
  act (logit (pooled (c4 (val_main_v6 (F := Ideal) x1 x3)) (c4u (val_main_v13 (F := Ideal) x2 x4))
          (c3 (val_main_v23 (F := Ideal) x0 x3)) (c3u (val_main_v30 (F := Ideal) x0 x5))) (c2 x6) (c1 x7))

/-- The linear layer: the pooled row against a weight row (the transposed matrix read back by its own coordinates),
    plus the bias entry. -/
private theorem logit_eq (r : Fin 64) (c : Fin 20) :
    val_main_v43 (F := Ideal) x0 x1 x2 x3 x4 x5 x6 x7 (ix2 r c)
      = logit (pooled (c4 (val_main_v6 (F := Ideal) x1 x3)) (c4u (val_main_v13 (F := Ideal) x2 x4))
          (c3 (val_main_v23 (F := Ideal) x0 x3)) (c3u (val_main_v30 (F := Ideal) x0 x5))) (c2 x6) (c1 x7) r c := by
  have eb : idx_main_v41 (idx_main_v42 (ix2 r c)) = ix1 c := funext fun a => Fin.ext (by match a with | ⟨0, _⟩ => rfl)
  rw [val_main_v43_apply, val_main_v40_apply, val_main_v42_apply, val_main_v41_apply, eb]
  unfold logit
  refine congrArg (· + x7 (ix1 c)) (Finset.sum_congr rfl fun k _ => ?_)
  have el : lidx_main_v40 (ix2 r c) k = ix2 r k := funext fun a => Fin.ext (by match a with | ⟨0, _⟩ => rfl | ⟨1, _⟩ => rfl)
  have er : idx_main_v39 (ridx_main_v40 (ix2 r c) k) = ix2 c k := funext fun a => Fin.ext (by match a with | ⟨0, _⟩ => rfl | ⟨1, _⟩ => rfl)
  rw [val_main_v39_apply, el, er, pooled_eq]

/-- The ramp: the maximum with zero. -/
private theorem scores_eq (r : Fin 64) (c : Fin 20) :
    val_main_v44 (F := Ideal) x0 x1 x2 x3 x4 x5 x6 x7 (ix2 r c) = scores x0 x1 x2 x3 x4 x5 x6 x7 r c := by
  have h0 : (FloatOps.ofBits FTy.f32 0x00000000#32 : Ideal .f32) = 0 := Ideal.ofBits_zero_f32
  rw [val_main_v44_apply, val_main_call0_v0_apply, val_main_call0_cst_apply, logit_eq, h0]
  rfl

/-- A row's maximum from minus infinity; a further maximum with minus infinity changes nothing. -/
private theorem rowMax_eq (r : Fin 64) :
    val_main_call1_v2 (F := Ideal) x0 x1 x2 x3 x4 x5 x6 x7 (ix1 r) = rowMax (scores x0 x1 x2 x3 x4 x5 x6 x7) r := by
  have h : S64x20.Reduces [1] S64 := by decide
  have hinit : val_main_call1_cst (F := Ideal) (Shape.Idx.first h_S_) = (⊥ : EReal) := ofBits_neg_inf_f32
  have hb : (FloatOps.ofBits FTy.f32 0xFF800000#32 : Ideal .f32) = (⊥ : EReal) := ofBits_neg_inf_f32
  rw [val_main_call1_v2_apply, val_main_call1_v1_apply, val_main_call1_cst_0_apply, hb]
  unfold val_main_call1_v0
  rw [Host.reduce_eq_fold_single FloatOps.maximumf _ _ reducesTo_S64x20_S64_d1 h h_S_, hinit]
  show max (⊥ : EReal) _ = _
  rw [max_bot_left]
  unfold rowMax
  refine Finset.fold_congr (fun (c : Fin 20) _ => ?_)
  have e1 : h.lift (ix1 r) c = ix2 r c := funext fun a => Fin.ext (by fin_cases a <;> rfl)
  show val_main_v44 (F := Ideal) x0 x1 x2 x3 x4 x5 x6 x7 (h.lift (ix1 r) c) = _
  rw [e1, scores_eq]

/-- A score minus its row's maximum. -/
private theorem shifted_eq (r : Fin 64) (c : Fin 20) :
    val_main_call1_v5 (F := Ideal) x0 x1 x2 x3 x4 x5 x6 x7 (ix2 r c)
      = scores x0 x1 x2 x3 x4 x5 x6 x7 r c - rowMax (scores x0 x1 x2 x3 x4 x5 x6 x7) r := by
  have e : idx_main_call1_v3 (idx_main_call1_v4 (ix2 r c)) = ix1 r := funext fun a => Fin.ext (by match a with | ⟨0, _⟩ => rfl)
  rw [val_main_call1_v5_apply, val_main_call1_v4_apply, val_main_call1_v3_apply, e, rowMax_eq, scores_eq]
  rfl

/-- The row's sum from zero of the exponentials of the shifted scores. -/
private theorem lse_eq (r : Fin 64) :
    val_main_call1_v7 (F := Ideal) x0 x1 x2 x3 x4 x5 x6 x7 (ix1 r)
      = ∑ c : Fin 20, Ideal.exp (scores x0 x1 x2 x3 x4 x5 x6 x7 r c - rowMax (scores x0 x1 x2 x3 x4 x5 x6 x7) r) := by
  have h0 : val_main_call1_cst_1 (F := Ideal) (Shape.Idx.first h_S_) = (0 : EReal) := Ideal.ofBits_zero_f32
  rw [val_main_call1_v7_apply, h0, zero_add]
  refine Finset.sum_congr rfl fun k _ => ?_
  have e : idx_main_call1_v7 (ix1 r) k = ix2 r k := funext fun a => Fin.ext (by match a with | ⟨0, _⟩ => rfl | ⟨1, _⟩ => rfl)
  rw [e, val_main_call1_v6_apply, shifted_eq]
  rfl

end Chain

/-- The reference's result, index by index, over its four gathered arrays and the two parameters. -/
theorem result_eq (x0 : (⟨S64x512, .i32⟩ : BufTy).Contents (Elt Ideal)) (x1 x2 : (⟨S64x512x16, .i32⟩ : BufTy).Contents (Elt Ideal))
    (x3 : (⟨S5000x256, .f32⟩ : BufTy).Contents (Elt Ideal)) (x4 : (⟨S24990002x1, .f32⟩ : BufTy).Contents (Elt Ideal))
    (x5 : (⟨S5000x1, .f32⟩ : BufTy).Contents (Elt Ideal)) (x6 : (⟨S20x256, .f32⟩ : BufTy).Contents (Elt Ideal))
    (x7 : (⟨S20, .f32⟩ : BufTy).Contents (Elt Ideal)) :
    val_main_v45 (F := Ideal) x0 x1 x2 x3 x4 x5 x6 x7
      = fun i => refForm (c4 (val_main_v6 (F := Ideal) x1 x3)) (c4u (val_main_v13 (F := Ideal) x2 x4))
          (c3 (val_main_v23 (F := Ideal) x0 x3)) (c3u (val_main_v30 (F := Ideal) x0 x5)) (c2 x6) (c1 x7) (i 0) (i 1) := by
  funext i
  obtain ⟨r, c, rfl⟩ : ∃ (r : Fin 64) (c : Fin 20), i = ix2 r c := ⟨i 0, i 1, eq_ix2 i⟩
  have e : idx_main_call1_v8 (idx_main_call1_v10 (ix2 r c)) = ix1 r := funext fun a => Fin.ext (by match a with | ⟨0, _⟩ => rfl)
  rw [val_main_v45_apply, val_main_call1_v10_apply, val_main_call1_v9_apply, val_main_call1_v8_apply, e, lse_eq, shifted_eq]
  rfl

end Cert.ReferenceIdeal.RefValue

end
-- ==== Proof.Head.lean ====
/-
  The host operations that run before the kernel compute the arrays it stages: the four table lookups (a negative
  index wrapped by the table's length, then the gather) are, operation for operation, the lookups the reference's own
  run begins with, and the bias row is the bias vector. And the precondition says that every entry of the five float
  arguments is a real number.
-/
import proofs.«130229_j41832981463504_1_alg».proof.Defs
import proofs.«130229_j41832981463504_1_alg».proof.Proof.Gen.Pre_finite_inputs
import proofs.«130229_j41832981463504_1_alg».proof.Proof.Gen.KernelIdeal.Frame
import proofs.«130229_j41832981463504_1_alg».proof.Proof.Gen.ReferenceIdeal.Read
import proofs.«130229_j41832981463504_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

noncomputable section

open Idealize.ShloMosaic Idealize.ShloMosaic.TcCoe Idealize.SL.Sem Idealize.ShloMosaic.ValueIdx

namespace Cert.Head

open Cert.Gnn

variable (m : (ℓ : Loc Cert.KernelIdeal.nD Cert.KernelIdeal.τ Cert.KernelIdeal.sig) → Buf (Elt Ideal) ℓ)

/-- The launch contents of the kernel program's arguments on core `c`. -/
abbrev a0 (c : Dev Cert.KernelIdeal.nD) := m ((c.tc : Thread Cert.KernelIdeal.nD Cert.KernelIdeal.τ).loc Cert.KernelIdeal.main_arg0)
abbrev a1 (c : Dev Cert.KernelIdeal.nD) := m ((c.tc : Thread Cert.KernelIdeal.nD Cert.KernelIdeal.τ).loc Cert.KernelIdeal.main_arg1)
abbrev a2 (c : Dev Cert.KernelIdeal.nD) := m ((c.tc : Thread Cert.KernelIdeal.nD Cert.KernelIdeal.τ).loc Cert.KernelIdeal.main_arg2)
abbrev a3 (c : Dev Cert.KernelIdeal.nD) := m ((c.tc : Thread Cert.KernelIdeal.nD Cert.KernelIdeal.τ).loc Cert.KernelIdeal.main_arg3)
abbrev a4 (c : Dev Cert.KernelIdeal.nD) := m ((c.tc : Thread Cert.KernelIdeal.nD Cert.KernelIdeal.τ).loc Cert.KernelIdeal.main_arg4)
abbrev a5 (c : Dev Cert.KernelIdeal.nD) := m ((c.tc : Thread Cert.KernelIdeal.nD Cert.KernelIdeal.τ).loc Cert.KernelIdeal.main_arg5)
abbrev a6 (c : Dev Cert.KernelIdeal.nD) := m ((c.tc : Thread Cert.KernelIdeal.nD Cert.KernelIdeal.τ).loc Cert.KernelIdeal.main_arg6)
abbrev a7 (c : Dev Cert.KernelIdeal.nD) := m ((c.tc : Thread Cert.KernelIdeal.nD Cert.KernelIdeal.τ).loc Cert.KernelIdeal.main_arg7)

/-- The neighbour embeddings the kernel stages are the reference's lookup of the same arguments. -/
theorem V_v6 (c : Dev Cert.KernelIdeal.nD) :
    Cert.KernelIdeal.Gen.V m c Cert.KernelIdeal.main_v6 = Cert.ReferenceIdeal.Read.val_main_v6 (F := Ideal) (a1 m c) (a3 m c) := by
  dsimp only [Cert.KernelIdeal.Gen.V, Cert.KernelIdeal.Gen.hostOps0]
  after_results_simp
  unfold Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_c_0
    Cert.ReferenceIdeal.Read.val_main_v1 Cert.ReferenceIdeal.Read.val_main_v0 Cert.ReferenceIdeal.Read.val_main_c
  rfl

/-- The edge weights likewise. -/
theorem V_v13 (c : Dev Cert.KernelIdeal.nD) :
    Cert.KernelIdeal.Gen.V m c Cert.KernelIdeal.main_v13 = Cert.ReferenceIdeal.Read.val_main_v13 (F := Ideal) (a2 m c) (a4 m c) := by
  dsimp only [Cert.KernelIdeal.Gen.V, Cert.KernelIdeal.Gen.hostOps0]
  after_results_simp
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_c_2
    Cert.ReferenceIdeal.Read.val_main_v8 Cert.ReferenceIdeal.Read.val_main_v7 Cert.ReferenceIdeal.Read.val_main_c_1
  rfl

/-- The nodes' own embeddings likewise. -/
theorem V_v20 (c : Dev Cert.KernelIdeal.nD) :
    Cert.KernelIdeal.Gen.V m c Cert.KernelIdeal.main_v20 = Cert.ReferenceIdeal.Read.val_main_v23 (F := Ideal) (a0 m c) (a3 m c) := by
  dsimp only [Cert.KernelIdeal.Gen.V, Cert.KernelIdeal.Gen.hostOps0]
  after_results_simp
  unfold Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4
    Cert.ReferenceIdeal.Read.val_main_v18 Cert.ReferenceIdeal.Read.val_main_v17 Cert.ReferenceIdeal.Read.val_main_c_3
  rfl

/-- The node weights likewise. -/
theorem V_v27 (c : Dev Cert.KernelIdeal.nD) :
    Cert.KernelIdeal.Gen.V m c Cert.KernelIdeal.main_v27 = Cert.ReferenceIdeal.Read.val_main_v30 (F := Ideal) (a0 m c) (a5 m c) := by
  dsimp only [Cert.KernelIdeal.Gen.V, Cert.KernelIdeal.Gen.hostOps0]
  after_results_simp
  unfold Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_6
    Cert.ReferenceIdeal.Read.val_main_v25 Cert.ReferenceIdeal.Read.val_main_v24 Cert.ReferenceIdeal.Read.val_main_c_5
  rfl

/-- The bias row the kernel stages is the bias vector. -/
theorem v28_row (c : Dev Cert.KernelIdeal.nD) (k : Fin 20) :
    Cert.KernelIdeal.Gen.V m c Cert.KernelIdeal.main_v28 (ix2 0 k) = a7 m c (ix1 k) := by
  dsimp only [Cert.KernelIdeal.Gen.V, Cert.KernelIdeal.Gen.hostOps0]
  after_results
  -- the cast [20] → [1,20] keeps the row-major position: (0, k) sits at 0 * 20 + k = k
  refine shapeCast_apply (s := Cert.KernelIdeal.S20) (t := Cert.KernelIdeal.S1x20) (a7 m c)
    Cert.KernelIdeal.Gen.shapeCasts_S20_S1x20 (ix2 0 k) (ix1 k) ?_
  rw [Shape.rowMajor_val_one, Shape.rowMajor_val_two]
  simp

/-- The scalar shape has exactly one index. -/
private instance : Subsingleton Cert.Pre_finite_inputs.S_.Idx := ⟨fun a b => funext fun d => d.elim0⟩

/-- An extended real whose absolute value max x (-x) lies strictly below +∞ is a real number: x < +∞ rules out +∞,
    and -x < +∞ rules out -∞. -/
private theorem isReal_of_abs_lt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have h' : BitVec.ofBool (decide (max (x : EReal) (-(x : EReal)) < ⊤)) = 1#1 := h
  have hlt : max (x : EReal) (-(x : EReal)) < ⊤ := by
    by_contra hn
    rw [decide_eq_false hn] at h'
    exact absurd h' (by decide)
  obtain ⟨h1, h2⟩ := max_lt_iff.1 hlt
  refine isReal_of_ne (fun hb => ?_) (ne_of_lt h1)
  rw [hb, EReal.neg_bot] at h2
  exact lt_irrefl _ h2

/-- A float array whose test "every |entry| < +∞" (the conjunction over all its entries) came out true holds real
    numbers only. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) : IsReal (x i) :=
  isReal_of_abs_lt (x i) (Host.reduce_andi_all _ _ hr hu ix0 e i)

/-- Under the precondition every entry of the five float arguments is a real number. -/
theorem real_args (h : Cert.Pre_KernelIdeal m) (c : Dev Cert.KernelIdeal.nD) :
    (∀ i, IsReal (a3 m c i)) ∧ (∀ i, IsReal (a4 m c i)) ∧ (∀ i, IsReal (a5 m c i)) ∧ (∀ i, IsReal (a6 m c i))
      ∧ (∀ i, IsReal (a7 m c i)) := by
  have e := congrFun (h c) ValueIdx.ix0
  dsimp only [Cert.Pre_finite_inputs.fn, Cert.Pre_finite_inputs.fn_part1] at e
  -- the predicate is the conjunction of the five arrays' tests
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  exact ⟨all_real _ _ _ _ e1, all_real _ _ _ _ e2, all_real _ _ _ _ e3, all_real _ _ _ _ e4, all_real _ _ _ _ e5⟩

end Cert.Head

end
-- ==== Proof.lean ====
/-
  The claim: a graph message-passing head — the largest edge-weighted neighbour embedding mixed with the node's own
  embedding, pooled over the sequence by a sum, a linear layer, a ramp, and the logarithm of the softmax — computed by
  a kernel that accumulates the pooled features over eight sequence blocks per row block and finishes on the last,
  against the plain array program.

  Over the extended reals both programs compute the same pooled features (a sum over 512 positions is eight sums over
  sixty-four) and the same non-negative scores X; the kernel ends with X - (M + L) and the array program with
  (X - M) - L, M the row's maximum and L the logarithm of the row's sum of exp (X - M). These agree because M is a real
  number: every table entry is real by the precondition, a lookup returns table entries whatever the index, and
  finite sums, products, differences and maxima of reals are reals. The frames and the idealization are the
  generated ones; the ledger of the idealization is empty.
-/
import proofs.«130229_j41832981463504_1_alg».proof.Defs
import proofs.«130229_j41832981463504_1_alg».proof.Proof.Gen.Kernel
import proofs.«130229_j41832981463504_1_alg».proof.Proof.Gen.Kernel.Skeleton
import proofs.«130229_j41832981463504_1_alg».proof.Proof.Gen.Kernel.Launch
import proofs.«130229_j41832981463504_1_alg».proof.Proof.Gen.Kernel.Points
import proofs.«130229_j41832981463504_1_alg».proof.Proof.Gen.Kernel.Frame
import proofs.«130229_j41832981463504_1_alg».proof.Proof.Gen.KernelIdeal
import proofs.«130229_j41832981463504_1_alg».proof.Proof.Gen.KernelIdeal.Skeleton
import proofs.«130229_j41832981463504_1_alg».proof.Proof.Gen.KernelIdeal.Launch
import proofs.«130229_j41832981463504_1_alg».proof.Proof.Gen.KernelIdeal.Points
import proofs.«130229_j41832981463504_1_alg».proof.Proof.Gen.KernelIdeal.Frame
import proofs.«130229_j41832981463504_1_alg».proof.Proof.Gen.ReferenceIdeal
import proofs.«130229_j41832981463504_1_alg».proof.Proof.Gen.Pre_finite_inputs
import proofs.«130229_j41832981463504_1_alg».proof.Proof.Gen.KernelIdeal.Value
import proofs.«130229_j41832981463504_1_alg».proof.Proof.Gen.ReferenceIdeal.Run
import proofs.«130229_j41832981463504_1_alg».proof.Proof.Gen.ReferenceIdeal.Read
import proofs.«130229_j41832981463504_1_alg».proof.Proof.Spec
import proofs.«130229_j41832981463504_1_alg».proof.Proof.KernelValue
import proofs.«130229_j41832981463504_1_alg».proof.Proof.RefValue
import proofs.«130229_j41832981463504_1_alg».proof.Proof.Head
import Idealize.ShloMosaic.Adequacy
import Idealize.ShloMosaic.Init

noncomputable section

namespace Cert.Proof

open Idealize.ShloMosaic Idealize.ShloMosaic.TcCoe Idealize.SL.Sem Idealize.ShloMosaic.ValueIdx Cert.Gnn

theorem frame_k : Cert.frame_Kernel := fun m ρ _ => Cert.Kernel.Gen.frame m ρ

theorem frame_ki : Cert.frame_KernelIdeal := fun m ρ _ => Cert.KernelIdeal.Gen.frame m ρ

/-- The array program has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array is the whole computation of the arrays its host operations stage, spelt over the
    array program's own lookups of the same arguments. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.GnnValue.G m c = fun i =>
      kernelForm (c4 (Cert.ReferenceIdeal.Read.val_main_v6 (F := Ideal) (Cert.Head.a1 m c) (Cert.Head.a3 m c)))
        (c4u (Cert.ReferenceIdeal.Read.val_main_v13 (F := Ideal) (Cert.Head.a2 m c) (Cert.Head.a4 m c)))
        (c3 (Cert.ReferenceIdeal.Read.val_main_v23 (F := Ideal) (Cert.Head.a0 m c) (Cert.Head.a3 m c)))
        (c3u (Cert.ReferenceIdeal.Read.val_main_v30 (F := Ideal) (Cert.Head.a0 m c) (Cert.Head.a5 m c)))
        (c2 (Cert.Head.a6 m c)) (c1 (Cert.Head.a7 m c)) (i 0) (i 1) := by
  have h0 : Cert.KernelIdeal.GnnValue.Ra m c
      = Cert.ReferenceIdeal.Read.val_main_v6 (F := Ideal) (Cert.Head.a1 m c) (Cert.Head.a3 m c) := Cert.Head.V_v6 m c
  have h1 : Cert.KernelIdeal.GnnValue.Ean m c
      = Cert.ReferenceIdeal.Read.val_main_v13 (F := Ideal) (Cert.Head.a2 m c) (Cert.Head.a4 m c) := Cert.Head.V_v13 m c
  have h2 : Cert.KernelIdeal.GnnValue.Rn m c
      = Cert.ReferenceIdeal.Read.val_main_v23 (F := Ideal) (Cert.Head.a0 m c) (Cert.Head.a3 m c) := Cert.Head.V_v20 m c
  have h3 : Cert.KernelIdeal.GnnValue.Nn m c
      = Cert.ReferenceIdeal.Read.val_main_v30 (F := Ideal) (Cert.Head.a0 m c) (Cert.Head.a5 m c) := Cert.Head.V_v27 m c
  have h6 : Cert.KernelIdeal.GnnValue.Wt m c = Cert.Head.a6 m c := Cert.KernelIdeal.Gen.V_main_arg6 m c
  have hb : c2row (Cert.KernelIdeal.GnnValue.Bi m c) = c1 (Cert.Head.a7 m c) :=
    funext fun k => Cert.Head.v28_row m c k
  unfold Cert.KernelIdeal.GnnValue.G
  rw [h0, h1, h2, h3, h6, hb]

/-- At the extended reals the kernel's result array ends at the computation's first spelling and the array program's
    at its second, of arguments that agree; the two are one function because every looked-up entry is a real. -/
theorem algebraic : Cert.algebraic_KernelIdeal_ReferenceIdeal := by
  intro m ρ m' ρ' hpre hagree
  refine ⟨fun c => Cert.KernelIdeal.GnnValue.G m c, Cert.KernelIdeal.GnnValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  obtain ⟨r3, r4, r5, r6, r7⟩ := Cert.Head.real_args m hpre c
  rw [Cert.ReferenceIdeal.Read.val_main_v45_eq, Cert.ReferenceIdeal.RefValue.result_eq, g0, g1, g2, g3, g4, g5, g6, g7]
  refine Eq.trans ?_ (kernel_result_eq m c).symm
  haveI : Nonempty (Fin 16) := ⟨0⟩
  haveI : Nonempty (Fin 20) := ⟨0⟩
  funext i
  refine (congrFun (congrFun (kernelForm_eq_refForm (ν := Fin 16) (γ := Fin 20)
    (fun r s n d => r3 _) (fun r s n => r4 _) (fun r s d => r3 _) (fun r s => r5 _)
    (fun k d => r6 _) (fun k => r7 _)) (i 0)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
